-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x100000 : Shape := ⟨2, ![8, 100000]⟩
abbrev S100000x3 : Shape := ⟨2, ![100000, 3]⟩
abbrev S6400000 : Shape := ⟨1, ![6400000]⟩
abbrev S_ : Shape := ⟨0, ![]⟩

class Facts : Prop where
  bcast_S_S8x100000 : S_.BroadcastsInDim S8x100000 (![] : Fin 0 → Fin S8x100000.rank)
  reducesTo_S8x100000_S_d0_1 : S8x100000.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S6400000 : S_.BroadcastsInDim S6400000 (![] : Fin 0 → Fin S6400000.rank)
  reducesTo_S6400000_S_d0 : S6400000.ReducesTo [0] S_

variable [Facts]

def fn_part1 {F : FTy → Type} [FloatOps F] (main_arg3 : IVec S6400000 32) (main_arg4 : IVec S6400000 32) (main_v13 : IVec S_ 1) (main_v15 : IVec S6400000 1) (main_c_5 : IVec S_ 32) : IVec S_ 1 :=
  let main_v16 : IVec S6400000 32 := broadcastInDim S6400000 ![] bcast_S_S6400000 main_c_5
  let main_v17 : IVec S6400000 1 := cmpi .slt main_arg3 main_v16
  let main_v18 : IVec S6400000 1 := andi main_v15 main_v17
  let main_c_6 : IVec S_ 1 := constantI S_ 1 1#1
  let main_v19 : IVec S_ 1 := (fun x v => Host.reduce IntOp.andi x v reducesTo_S6400000_S_d0 h_S_) main_v18 main_c_6
  let main_v20 : IVec S_ 1 := andi main_v13 main_v19
  let main_c_7 : IVec S_ 32 := constantI S_ 32 0#32
  let main_v21 : IVec S6400000 32 := broadcastInDim S6400000 ![] bcast_S_S6400000 main_c_7
  let main_v22 : IVec S6400000 1 := cmpi .sge main_arg4 main_v21
  let main_c_8 : IVec S_ 32 := constantI S_ 32 100000#32
  let main_v23 : IVec S6400000 32 := broadcastInDim S6400000 ![] bcast_S_S6400000 main_c_8
  let main_v24 : IVec S6400000 1 := cmpi .slt main_arg4 main_v23
  let main_v25 : IVec S6400000 1 := andi main_v22 main_v24
  let main_c_9 : IVec S_ 1 := constantI S_ 1 1#1
  let main_v26 : IVec S_ 1 := (fun x v => Host.reduce IntOp.andi x v reducesTo_S6400000_S_d0 h_S_) main_v25 main_c_9
  let main_v27 : IVec S_ 1 := andi main_v20 main_v26
  main_v27

def fn {F : FTy → Type} [FloatOps F] (main_arg0 : FVec F S8x100000 .f32) (main_arg1 : FVec F S100000x3 .f32) (main_arg2 : FVec F S100000x3 .f32) (main_arg3 : IVec S6400000 32) (main_arg4 : IVec S6400000 32) : IVec S_ 1 :=
  let main_v0 : FVec F S8x100000 .f32 := Host.absf main_arg0
  let main_cst : FVec F S_ .f32 := constant S_ .f32 0x7F800000#32
  let main_v1 : FVec F S8x100000 .f32 := broadcastInDim S8x100000 ![] bcast_S_S8x100000 main_cst
  let main_v2 : IVec S8x100000 1 := cmpf .olt main_v0 main_v1
  let main_c : IVec S_ 1 := constantI S_ 1 1#1
  let main_v3 : IVec S_ 1 := (fun x v => Host.reduce IntOp.andi x v reducesTo_S8x100000_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S100000x3 .f32 := Host.absf main_arg2
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  let main_c_4 : IVec S_ 32 := constantI S_ 32 0#32
  let main_v14 : IVec S6400000 32 := broadcastInDim S6400000 ![] bcast_S_S6400000 main_c_4
  let main_v15 : IVec S6400000 1 := cmpi .sge main_arg3 main_v14
  let main_c_5 : IVec S_ 32 := constantI S_ 32 100000#32
  fn_part1 (F := F) main_arg3 main_arg4 main_v13 main_v15 main_c_5
-- ==== Kernel.lean ====
abbrev S8x100000 : Shape := ⟨2, ![8, 100000]⟩
abbrev S100000x3 : Shape := ⟨2, ![100000, 3]⟩
abbrev S6400000 : Shape := ⟨1, ![6400000]⟩
abbrev S3x100000 : Shape := ⟨2, ![3, 100000]⟩
abbrev S_ : Shape := ⟨0, ![]⟩
abbrev S6400000x1 : Shape := ⟨2, ![6400000, 1]⟩
abbrev S1 : Shape := ⟨1, ![1]⟩
abbrev S1x1 : Shape := ⟨2, ![1, 1]⟩
abbrev S3x6400000 : Shape := ⟨2, ![3, 6400000]⟩
abbrev S6x6400000 : Shape := ⟨2, ![6, 6400000]⟩
abbrev S8x6400000 : Shape := ⟨2, ![8, 6400000]⟩
abbrev S9x6400000 : Shape := ⟨2, ![9, 6400000]⟩
abbrev S6x80000 : Shape := ⟨2, ![6, 80000]⟩
abbrev S8x80000 : Shape := ⟨2, ![8, 80000]⟩
abbrev S9x80000 : Shape := ⟨2, ![9, 80000]⟩
abbrev S1x80000 : Shape := ⟨2, ![1, 80000]⟩
abbrev S9x100000 : Shape := ⟨2, ![9, 100000]⟩
abbrev S1x100000 : Shape := ⟨2, ![1, 100000]⟩
abbrev S100000 : Shape := ⟨1, ![100000]⟩

abbrev nBuf : Space → Nat
  | .hbm => 102
  | .vmem => 6
  | .smem => 0
  | _ => 0

abbrev bufTy : (tb : Table) → Fin (tcTables nBuf tb) → BufTy
  | .hbm, ⟨0, _⟩ => ⟨S8x100000, .f32⟩
  | .hbm, ⟨1, _⟩ => ⟨S100000x3, .f32⟩
  | .hbm, ⟨2, _⟩ => ⟨S100000x3, .f32⟩
  | .hbm, ⟨3, _⟩ => ⟨S6400000, .i32⟩
  | .hbm, ⟨4, _⟩ => ⟨S6400000, .i32⟩
  | .hbm, ⟨5, _⟩ => ⟨S3x100000, .f32⟩
  | .hbm, ⟨6, _⟩ => ⟨S3x100000, .f32⟩
  | .hbm, ⟨7, _⟩ => ⟨S_, .i32⟩
  | .hbm, ⟨8, _⟩ => ⟨S6400000, .i32⟩
  | .hbm, ⟨9, _⟩ => ⟨S6400000, .i1⟩
  | .hbm, ⟨10, _⟩ => ⟨S_, .i32⟩
  | .hbm, ⟨11, _⟩ => ⟨S6400000, .i32⟩
  | .hbm, ⟨12, _⟩ => ⟨S6400000, .i32⟩
  | .hbm, ⟨13, _⟩ => ⟨S6400000, .i32⟩
  | .hbm, ⟨14, _⟩ => ⟨S6400000x1, .i32⟩
  | .hbm, ⟨15, _⟩ => ⟨S1, .i32⟩
  | .hbm, ⟨16, _⟩ => ⟨S_, .i32⟩
  | .hbm, ⟨17, _⟩ => ⟨S6400000x1, .i32⟩
  | .hbm, ⟨18, _⟩ => ⟨S6400000x1, .i1⟩
  | .hbm, ⟨19, _⟩ => ⟨S1x1, .i32⟩
  | .hbm, ⟨20, _⟩ => ⟨S6400000x1, .i32⟩
  | .hbm, ⟨21, _⟩ => ⟨S6400000x1, .i1⟩
  | .hbm, ⟨22, _⟩ => ⟨S6400000x1, .i1⟩
  | .hbm, ⟨23, _⟩ => ⟨S_, .i1⟩
  | .hbm, ⟨24, _⟩ => ⟨S6400000, .i1⟩
  | .hbm, ⟨25, _⟩ => ⟨S3x6400000, .f32⟩
  | .hbm, ⟨26, _⟩ => ⟨S3x6400000, .i1⟩
  | .hbm, ⟨27, _⟩ => ⟨S_, .f32⟩
  | .hbm, ⟨28, _⟩ => ⟨S3x6400000, .f32⟩
  | .hbm, ⟨29, _⟩ => ⟨S3x6400000, .f32⟩
  | .hbm, ⟨30, _⟩ => ⟨S_, .i32⟩
  | .hbm, ⟨31, _⟩ => ⟨S6400000, .i32⟩
  | .hbm, ⟨32, _⟩ => ⟨S6400000, .i1⟩
  | .hbm, ⟨33, _⟩ => ⟨S_, .i32⟩
  | .hbm, ⟨34, _⟩ => ⟨S6400000, .i32⟩
  | .hbm, ⟨35, _⟩ => ⟨S6400000, .i32⟩
  | .hbm, ⟨36, _⟩ => ⟨S6400000, .i32⟩
  | .hbm, ⟨37, _⟩ => ⟨S6400000x1, .i32⟩
  | .hbm, ⟨38, _⟩ => ⟨S1, .i32⟩
  | .hbm, ⟨39, _⟩ => ⟨S_, .i32⟩
  | .hbm, ⟨40, _⟩ => ⟨S6400000x1, .i32⟩
  | .hbm, ⟨41, _⟩ => ⟨S6400000x1, .i1⟩
  | .hbm, ⟨42, _⟩ => ⟨S1x1, .i32⟩
  | .hbm, ⟨43, _⟩ => ⟨S6400000x1, .i32⟩
  | .hbm, ⟨44, _⟩ => ⟨S6400000x1, .i1⟩
  | .hbm, ⟨45, _⟩ => ⟨S6400000x1, .i1⟩
  | .hbm, ⟨46, _⟩ => ⟨S_, .i1⟩
  | .hbm, ⟨47, _⟩ => ⟨S6400000, .i1⟩
  | .hbm, ⟨48, _⟩ => ⟨S3x6400000, .f32⟩
  | .hbm, ⟨49, _⟩ => ⟨S3x6400000, .i1⟩
  | .hbm, ⟨50, _⟩ => ⟨S_, .f32⟩
  | .hbm, ⟨51, _⟩ => ⟨S3x6400000, .f32⟩
  | .hbm, ⟨52, _⟩ => ⟨S3x6400000, .f32⟩
  | .hbm, ⟨53, _⟩ => ⟨S6x6400000, .f32⟩
  | .hbm, ⟨54, _⟩ => ⟨S_, .i32⟩
  | .hbm, ⟨55, _⟩ => ⟨S6400000, .i32⟩
  | .hbm, ⟨56, _⟩ => ⟨S6400000, .i1⟩
  | .hbm, ⟨57, _⟩ => ⟨S_, .i32⟩
  | .hbm, ⟨58, _⟩ => ⟨S6400000, .i32⟩
  | .hbm, ⟨59, _⟩ => ⟨S6400000, .i32⟩
  | .hbm, ⟨60, _⟩ => ⟨S6400000, .i32⟩
  | .hbm, ⟨61, _⟩ => ⟨S6400000x1, .i32⟩
  | .hbm, ⟨62, _⟩ => ⟨S1, .i32⟩
  | .hbm, ⟨63, _⟩ => ⟨S_, .i32⟩
  | .hbm, ⟨64, _⟩ => ⟨S6400000x1, .i32⟩
  | .hbm, ⟨65, _⟩ => ⟨S6400000x1, .i1⟩
  | .hbm, ⟨66, _⟩ => ⟨S1x1, .i32⟩
  | .hbm, ⟨67, _⟩ => ⟨S6400000x1, .i32⟩
  | .hbm, ⟨68, _⟩ => ⟨S6400000x1, .i1⟩
  | .hbm, ⟨69, _⟩ => ⟨S6400000x1, .i1⟩
  | .hbm, ⟨70, _⟩ => ⟨S_, .i1⟩
  | .hbm, ⟨71, _⟩ => ⟨S6400000, .i1⟩
  | .hbm, ⟨72, _⟩ => ⟨S8x6400000, .f32⟩
  | .hbm, ⟨73, _⟩ => ⟨S8x6400000, .i1⟩
  | .hbm, ⟨74, _⟩ => ⟨S_, .f32⟩
  | .hbm, ⟨75, _⟩ => ⟨S8x6400000, .f32⟩
  | .hbm, ⟨76, _⟩ => ⟨S8x6400000, .f32⟩
  | .hbm, ⟨77, _⟩ => ⟨S9x6400000, .f32⟩
  | .hbm, ⟨78, _⟩ => ⟨S_, .f32⟩
  | .hbm, ⟨79, _⟩ => ⟨S9x100000, .f32⟩
  | .hbm, ⟨80, _⟩ => ⟨S_, .i32⟩
  | .hbm, ⟨81, _⟩ => ⟨S6400000, .i32⟩
  | .hbm, ⟨82, _⟩ => ⟨S6400000, .i1⟩
  | .hbm, ⟨83, _⟩ => ⟨S_, .i32⟩
  | .hbm, ⟨84, _⟩ => ⟨S6400000, .i32⟩
  | .hbm, ⟨85, _⟩ => ⟨S6400000, .i32⟩
  | .hbm, ⟨86, _⟩ => ⟨S6400000, .i32⟩
  | .hbm, ⟨87, _⟩ => ⟨S6400000x1, .i32⟩
  | .hbm, ⟨88, _⟩ => ⟨S9x100000, .f32⟩
  | .hbm, ⟨89, _⟩ => ⟨S8x100000, .f32⟩
  | .hbm, ⟨90, _⟩ => ⟨S1x100000, .f32⟩
  | .hbm, ⟨91, _⟩ => ⟨S100000, .f32⟩
  | .hbm, ⟨92, _⟩ => ⟨S_, .f32⟩
  | .hbm, ⟨93, _⟩ => ⟨S100000, .f32⟩
  | .hbm, ⟨94, _⟩ => ⟨S100000, .i1⟩
  | .hbm, ⟨95, _⟩ => ⟨S_, .f32⟩
  | .hbm, ⟨96, _⟩ => ⟨S_, .f32⟩
  | .hbm, ⟨97, _⟩ => ⟨S100000, .f32⟩
  | .hbm, ⟨98, _⟩ => ⟨S100000, .f32⟩
  | .hbm, ⟨99, _⟩ => ⟨S1x100000, .f32⟩
  | .hbm, ⟨100, _⟩ => ⟨S8x100000, .f32⟩
  | .hbm, ⟨101, _⟩ => ⟨S8x100000, .f32⟩
  | .local _ .vmem, ⟨0, _⟩ => ⟨S6x80000, .f32⟩
  | .local _ .vmem, ⟨1, _⟩ => ⟨S6x80000, .f32⟩
  | .local _ .vmem, ⟨2, _⟩ => ⟨S8x80000, .f32⟩
  | .local _ .vmem, ⟨3, _⟩ => ⟨S8x80000, .f32⟩
  | .local _ .vmem, ⟨4, _⟩ => ⟨S9x80000, .f32⟩
  | .local _ .vmem, ⟨5, _⟩ => ⟨S9x80000, .f32⟩
  | _, _ => ⟨S8x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v3 : Ref sig .tc := ⟨.hbm, 52, rfl⟩
abbrev main_v4 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v5 : Ref sig .tc := ⟨.hbm, 76, rfl⟩
abbrev main_v6 : Ref sig .tc := ⟨.hbm, 77, rfl⟩
abbrev main_cst : Ref sig .tc := ⟨.hbm, 78, rfl⟩
abbrev main_v7 : Ref sig .tc := ⟨.hbm, 79, rfl⟩
abbrev main_c : Ref sig .tc := ⟨.hbm, 80, rfl⟩
abbrev main_v8 : Ref sig .tc := ⟨.hbm, 81, rfl⟩
abbrev main_v9 : Ref sig .tc := ⟨.hbm, 82, rfl⟩
abbrev main_c_0 : Ref sig .tc := ⟨.hbm, 83, rfl⟩
abbrev main_v10 : Ref sig .tc := ⟨.hbm, 84, rfl⟩
abbrev main_v11 : Ref sig .tc := ⟨.hbm, 85, rfl⟩
abbrev main_v12 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_v16 : Ref sig .tc := ⟨.hbm, 90, rfl⟩
abbrev main_v17 : Ref sig .tc := ⟨.hbm, 91, rfl⟩
abbrev main_cst_1 : Ref sig .tc := ⟨.hbm, 92, rfl⟩
abbrev main_v18 : Ref sig .tc := ⟨.hbm, 93, rfl⟩
abbrev main_v19 : Ref sig .tc := ⟨.hbm, 94, rfl⟩
abbrev main_cst_2 : Ref sig .tc := ⟨.hbm, 95, rfl⟩
abbrev main_call3_v0 : Ref sig .tc := ⟨.hbm, 96, rfl⟩
abbrev main_call3_v1 : Ref sig .tc := ⟨.hbm, 97, rfl⟩
abbrev main_v20 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S9x80000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S100000x3_S3x100000_1_0 : S100000x3.Transposes [1, 0] S3x100000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  h_S_ : 0 < S_.numel
  bcast_S6400000_S3x6400000_1 : S6400000.BroadcastsInDim S3x6400000 (![1] : Fin 1 → Fin S3x6400000.rank)
  bcast_S_S3x6400000 : S_.BroadcastsInDim S3x6400000 (![] : Fin 0 → Fin S3x6400000.rank)
  concatenates_S3x6400000_S3x6400000_S6x6400000_d0 : Shape.Concatenates [S3x6400000, S3x6400000] S6x6400000 0
  bcast_S6400000_S8x6400000_1 : S6400000.BroadcastsInDim S8x6400000 (![1] : Fin 1 → Fin S8x6400000.rank)
  bcast_S_S8x6400000 : S_.BroadcastsInDim S8x6400000 (![] : Fin 0 → Fin S8x6400000.rank)
  inb_S6x80000_S1x80000_0_0 : ∀ a, (![0, 0] : Fin 2 → Nat) a + S1x80000.size a ≤ S6x80000.size a
  h_S1x80000 : 0 < S1x80000.numel
  shapeCasts_S1x80000_S1x80000 : S1x80000.ShapeCasts S1x80000
  inb_S6x80000_S1x80000_1_0 : ∀ a, (![1, 0] : Fin 2 → Nat) a + S1x80000.size a ≤ S6x80000.size a
  inb_S6x80000_S1x80000_2_0 : ∀ a, (![2, 0] : Fin 2 → Nat) a + S1x80000.size a ≤ S6x80000.size a
  inb_S6x80000_S1x80000_3_0 : ∀ a, (![3, 0] : Fin 2 → Nat) a + S1x80000.size a ≤ S6x80000.size a
  inb_S6x80000_S1x80000_4_0 : ∀ a, (![4, 0] : Fin 2 → Nat) a + S1x80000.size a ≤ S6x80000.size a
  inb_S6x80000_S1x80000_5_0 : ∀ a, (![5, 0] : Fin 2 → Nat) a + S1x80000.size a ≤ S6x80000.size a
  inb_S8x80000_S8x80000_0_0 : ∀ a, (![0, 0] : Fin 2 → Nat) a + S8x80000.size a ≤ S8x80000.size a
  h_S8x80000 : 0 < S8x80000.numel
  shapeCasts_S8x80000_S8x80000 : S8x80000.ShapeCasts S8x80000
  broadcasts_S1x80000_S8x80000 : S1x80000.Broadcasts S8x80000
  inb_S9x80000_S8x80000_0_0 : ∀ a, (![0, 0] : Fin 2 → Nat) a + S8x80000.size a ≤ S9x80000.size a
  inb_S9x80000_S1x80000_8_0 : ∀ a, (![8, 0] : Fin 2 → Nat) a + S1x80000.size a ≤ S9x80000.size a
  bcast_S_S9x100000 : S_.BroadcastsInDim S9x100000 (![] : Fin 0 → Fin S9x100000.rank)
  slices_S9x100000_S8x100000_0_0 : S9x100000.Slices ![0, 0] S8x100000
  slices_S9x100000_S1x100000_8_0 : S9x100000.Slices ![8, 0] S1x100000
  shapeCasts_S1x100000_S100000 : S1x100000.ShapeCasts S100000
  bcast_S_S100000 : S_.BroadcastsInDim S100000 (![] : Fin 0 → Fin S100000.rank)
  bcast_S100000_S1x100000_1 : S100000.BroadcastsInDim S1x100000 (![1] : Fin 1 → Fin S1x100000.rank)
  bcast_S1x100000_S8x100000_0_1 : S1x100000.BroadcastsInDim S8x100000 (![0, 1] : Fin 2 → Fin S8x100000.rank)
  gather_S3x100000_S6400000x1_S3x6400000_0_1_n_n_1_1_31_wf : GatherDims.WF S3x100000 S6400000x1 S3x6400000 [0] [1] [] [1] [] 1 ![3, 1]
  gather_S8x100000_S6400000x1_S8x6400000_0_1_n_n_1_1_81_wf : GatherDims.WF S8x100000 S6400000x1 S8x6400000 [0] [1] [] [1] [] 1 ![8, 1]
  scatter_S9x100000_S6400000x1_S9x6400000_0_1_1_1_wf : ScatterDims.WF S9x100000 S6400000x1 S9x6400000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x80000.size a ≤ S6x6400000.size a
  hwx0_0 : ∀ i : grid0.Coords, EltTy.bits .f32 = 32 ∨ (Rect.block (s := S6x6400000) S6x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x80000.size a ≤ S8x6400000.size a
  hwx0_1 : ∀ i : grid0.Coords, EltTy.bits .f32 = 32 ∨ (Rect.block (s := S8x6400000) S8x80000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9x80000.size a ≤ S9x6400000.size a
  hwx0_2 : ∀ i : grid0.Coords, EltTy.bits .f32 = 32 ∨ (Rect.block (s := S9x6400000) S9x80000.size (cc0_transform_2 i) (hinb0_2 i)).WholeWords (EltTy.packing .f32)

variable [Facts₀]

def gather_S3x100000_S6400000x1_S3x6400000_0_1_n_n_1_1_31 : GatherDims S3x100000 S6400000x1 S3x6400000 where
  offsetDims := [0]
  collapsedSliceDims := [1]
  operandBatchingDims := []
  startIndicesBatchingDims := []
  startIndexMap := [1]
  indexVectorDim := 1
  sliceSizes := ![3, 1]
  wf := gather_S3x100000_S6400000x1_S3x6400000_0_1_n_n_1_1_31_wf
def gather_S8x100000_S6400000x1_S8x6400000_0_1_n_n_1_1_81 : GatherDims S8x100000 S6400000x1 S8x6400000 where
  offsetDims := [0]
  collapsedSliceDims := [1]
  operandBatchingDims := []
  startIndicesBatchingDims := []
  startIndexMap := [1]
  indexVectorDim := 1
  sliceSizes := ![8, 1]
  wf := gather_S8x100000_S6400000x1_S8x6400000_0_1_n_n_1_1_81_wf
def scatter_S9x100000_S6400000x1_S9x6400000_0_1_1_1 : ScatterDims S9x100000 S6400000x1 S9x6400000 where
  updateWindowDims := [0]
  insertedWindowDims := [1]
  scatterDimsToOperandDims := [1]
  indexVectorDim := 1
  wf := scatter_S9x100000_S6400000x1_S9x6400000_0_1_1_1_wf

abbrev win0_0 : Pipeline.Window sig grid0 :=
  Pipeline.Window.ofSpec (Memref.whole main_v4) S6x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S9x80000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x100000 : Shape := ⟨2, ![8, 100000]⟩
abbrev S100000x3 : Shape := ⟨2, ![100000, 3]⟩
abbrev S6400000 : Shape := ⟨1, ![6400000]⟩
abbrev S_ : Shape := ⟨0, ![]⟩
abbrev S6400000x1 : Shape := ⟨2, ![6400000, 1]⟩
abbrev S6400000x3 : Shape := ⟨2, ![6400000, 3]⟩
abbrev S8x6400000 : Shape := ⟨2, ![8, 6400000]⟩
abbrev S6400000x8 : Shape := ⟨2, ![6400000, 8]⟩
abbrev S100000x8 : Shape := ⟨2, ![100000, 8]⟩
abbrev S100000 : Shape := ⟨1, ![100000]⟩
abbrev S1x100000 : Shape := ⟨2, ![1, 100000]⟩

abbrev nBuf : Space → Nat
  | .hbm => 66
  | .vmem => 0
  | .smem => 0
  | _ => 0

abbrev bufTy : (tb : Table) → Fin (tcTables nBuf tb) → BufTy
  | .hbm, ⟨0, _⟩ => ⟨S8x100000, .f32⟩
  | .hbm, ⟨1, _⟩ => ⟨S100000x3, .f32⟩
  | .hbm, ⟨2, _⟩ => ⟨S100000x3, .f32⟩
  | .hbm, ⟨3, _⟩ => ⟨S6400000, .i32⟩
  | .hbm, ⟨4, _⟩ => ⟨S6400000, .i32⟩
  | .hbm, ⟨5, _⟩ => ⟨S_, .i32⟩
  | .hbm, ⟨6, _⟩ => ⟨S6400000, .i32⟩
  | .hbm, ⟨7, _⟩ => ⟨S6400000, .i1⟩
  | .hbm, ⟨8, _⟩ => ⟨S_, .i32⟩
  | .hbm, ⟨9, _⟩ => ⟨S6400000, .i32⟩
  | .hbm, ⟨10, _⟩ => ⟨S6400000, .i32⟩
  | .hbm, ⟨11, _⟩ => ⟨S6400000, .i32⟩
  | .hbm, ⟨12, _⟩ => ⟨S6400000x1, .i32⟩
  | .hbm, ⟨13, _⟩ => ⟨S6400000x3, .f32⟩
  | .hbm, ⟨14, _⟩ => ⟨S_, .f32⟩
  | .hbm, ⟨15, _⟩ => ⟨S6400000x3, .f32⟩
  | .hbm, ⟨16, _⟩ => ⟨S6400000x3, .f32⟩
  | .hbm, ⟨17, _⟩ => ⟨S_, .i32⟩
  | .hbm, ⟨18, _⟩ => ⟨S6400000, .i32⟩
  | .hbm, ⟨19, _⟩ => ⟨S6400000, .i1⟩
  | .hbm, ⟨20, _⟩ => ⟨S_, .i32⟩
  | .hbm, ⟨21, _⟩ => ⟨S6400000, .i32⟩
  | .hbm, ⟨22, _⟩ => ⟨S6400000, .i32⟩
  | .hbm, ⟨23, _⟩ => ⟨S6400000, .i32⟩
  | .hbm, ⟨24, _⟩ => ⟨S6400000x1, .i32⟩
  | .hbm, ⟨25, _⟩ => ⟨S6400000x3, .f32⟩
  | .hbm, ⟨26, _⟩ => ⟨S6400000x3, .f32⟩
  | .hbm, ⟨27, _⟩ => ⟨S6400000x3, .f32⟩
  | .hbm, ⟨28, _⟩ => ⟨S_, .f32⟩
  | .hbm, ⟨29, _⟩ => ⟨S6400000, .f32⟩
  | .hbm, ⟨30, _⟩ => ⟨S6400000, .f32⟩
  | .hbm, ⟨31, _⟩ => ⟨S_, .f32⟩
  | .hbm, ⟨32, _⟩ => ⟨S6400000, .f32⟩
  | .hbm, ⟨33, _⟩ => ⟨S6400000, .f32⟩
  | .hbm, ⟨34, _⟩ => ⟨S_, .i32⟩
  | .hbm, ⟨35, _⟩ => ⟨S6400000, .i32⟩
  | .hbm, ⟨36, _⟩ => ⟨S6400000, .i1⟩
  | .hbm, ⟨37, _⟩ => ⟨S_, .i32⟩
  | .hbm, ⟨38, _⟩ => ⟨S6400000, .i32⟩
  | .hbm, ⟨39, _⟩ => ⟨S6400000, .i32⟩
  | .hbm, ⟨40, _⟩ => ⟨S6400000, .i32⟩
  | .hbm, ⟨41, _⟩ => ⟨S6400000x1, .i32⟩
  | .hbm, ⟨42, _⟩ => ⟨S8x6400000, .f32⟩
  | .hbm, ⟨43, _⟩ => ⟨S6400000x8, .f32⟩
  | .hbm, ⟨44, _⟩ => ⟨S6400000x1, .f32⟩
  | .hbm, ⟨45, _⟩ => ⟨S6400000x8, .f32⟩
  | .hbm, ⟨46, _⟩ => ⟨S6400000x8, .f32⟩
  | .hbm, ⟨47, _⟩ => ⟨S_, .f32⟩
  | .hbm, ⟨48, _⟩ => ⟨S100000x8, .f32⟩
  | .hbm, ⟨49, _⟩ => ⟨S6400000x1, .i32⟩
  | .hbm, ⟨50, _⟩ => ⟨S100000x8, .f32⟩
  | .hbm, ⟨51, _⟩ => ⟨S8x100000, .f32⟩
  | .hbm, ⟨52, _⟩ => ⟨S_, .f32⟩
  | .hbm, ⟨53, _⟩ => ⟨S100000, .f32⟩
  | .hbm, ⟨54, _⟩ => ⟨S6400000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .i1⟩
  | .hbm, ⟨59, _⟩ => ⟨S_, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S1x100000, .f32⟩
  | .hbm, ⟨64, _⟩ => ⟨S8x100000, .f32⟩
  | .hbm, ⟨65, _⟩ => ⟨S8x100000, .f32⟩
  | _, _ => ⟨S8x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_call1_v0 : Ref sig .tc := ⟨.hbm, 60, rfl⟩
abbrev main_call1_v1 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x3 : S_.BroadcastsInDim S6400000x3 (![] : Fin 0 → Fin S6400000x3.rank)
  reducesTo_S6400000x3_S6400000_d1 : S6400000x3.ReducesTo [1] S6400000
  h_S_ : 0 < S_.numel
  transposes_S8x6400000_S6400000x8_1_0 : S8x6400000.Transposes [1, 0] S6400000x8
  bcast_S6400000x1_S6400000x8_0_1 : S6400000x1.BroadcastsInDim S6400000x8 (![0, 1] : Fin 2 → Fin S6400000x8.rank)
  bcast_S_S100000x8 : S_.BroadcastsInDim S100000x8 (![] : Fin 0 → Fin S100000x8.rank)
  transposes_S100000x8_S8x100000_1_0 : S100000x8.Transposes [1, 0] S8x100000
  bcast_S_S100000 : S_.BroadcastsInDim S100000 (![] : Fin 0 → Fin S100000.rank)
  bcast_S100000_S1x100000_1 : S100000.BroadcastsInDim S1x100000 (![1] : Fin 1 → Fin S1x100000.rank)
  bcast_S1x100000_S8x100000_0_1 : S1x100000.BroadcastsInDim S8x100000 (![0, 1] : Fin 2 → Fin S8x100000.rank)
  gather_S100000x3_S6400000x1_S6400000x3_1_0_n_n_0_1_13_wf : GatherDims.WF S100000x3 S6400000x1 S6400000x3 [1] [0] [] [0] [] 1 ![1, 3]
  gather_S8x100000_S6400000x1_S8x6400000_0_1_n_n_1_1_81_wf : GatherDims.WF S8x100000 S6400000x1 S8x6400000 [0] [1] [] [1] [] 1 ![8, 1]
  scatter_S100000x8_S6400000x1_S6400000x8_1_0_0_1_wf : ScatterDims.WF S100000x8 S6400000x1 S6400000x8 [1] [0] [0] 1
  scatter_S100000_S6400000x1_S6400000_n_0_0_1_wf : ScatterDims.WF S100000 S6400000x1 S6400000 [] [0] [0] 1

variable [Facts₀]

def gather_S100000x3_S6400000x1_S6400000x3_1_0_n_n_0_1_13 : GatherDims S100000x3 S6400000x1 S6400000x3 where
  offsetDims := [1]
  collapsedSliceDims := [0]
  operandBatchingDims := []
  startIndicesBatchingDims := []
  startIndexMap := [0]
  indexVectorDim := 1
  sliceSizes := ![1, 3]
  wf := gather_S100000x3_S6400000x1_S6400000x3_1_0_n_n_0_1_13_wf
def gather_S8x100000_S6400000x1_S8x6400000_0_1_n_n_1_1_81 : GatherDims S8x100000 S6400000x1 S8x6400000 where
  offsetDims := [0]
  collapsedSliceDims := [1]
  operandBatchingDims := []
  startIndicesBatchingDims := []
  startIndexMap := [1]
  indexVectorDim := 1
  sliceSizes := ![8, 1]
  wf := gather_S8x100000_S6400000x1_S8x6400000_0_1_n_n_1_1_81_wf
def scatter_S100000x8_S6400000x1_S6400000x8_1_0_0_1 : ScatterDims S100000x8 S6400000x1 S6400000x8 where
  updateWindowDims := [1]
  insertedWindowDims := [0]
  scatterDimsToOperandDims := [0]
  indexVectorDim := 1
  wf := scatter_S100000x8_S6400000x1_S6400000x8_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

class Facts : Prop extends Facts₀ where

variable [Facts]
-- ==== Proof.Spec.lean ====
/-
  The function both programs compute, stated once over the argument arrays at the extended reals.

  There are E = 6 400 000 edges; edge `e` joins source point `ei e` to target point `eo e` (both among 100 000 points).
  Its displacement has the three coordinates `1 + pin (ei e, k) − pout (eo e, k)`, its weight is the reciprocal square
  root of the displacement's squared length, and the result at field `b` and target `n` is the weighted sum of
  `x (b, ei e)` over the edges whose target is `n`, divided by the sum of their weights when that sum is positive and
  by one otherwise. An index word is read signed and clamped into the table (`cl`), which on a word already in range
  is the word itself.
-/
import Idealize.ShloMosaic.PureOps.Ideal
import Idealize.ShloMosaic.Lib.ValueIdx

noncomputable section

namespace Cert.Spec

open Idealize.ShloMosaic Idealize.ShloMosaic.ValueIdx

abbrev SX : Shape := ⟨2, ![8, 100000]⟩
abbrev SP : Shape := ⟨2, ![100000, 3]⟩
abbrev SE : Shape := ⟨1, ![6400000]⟩
abbrev SN : Shape := ⟨1, ![100000]⟩
abbrev S6E : Shape := ⟨2, ![6, 6400000]⟩
abbrev S8E : Shape := ⟨2, ![8, 6400000]⟩
abbrev S9E : Shape := ⟨2, ![9, 6400000]⟩

/-- An index word read signed and clamped into a table of 100 000 entries. -/
def cl (w : BitVec 32) : Fin 100000 := ⟨min w.toInt.toNat (100000 - 1), by omega⟩

/-- The words one and zero as the programs spell them. -/
abbrev one : EReal := Ideal.ofBits .f32 0x3F800000#32
abbrev zero : EReal := Ideal.ofBits .f32 0x00000000#32

/-- Both index arrays name points: every word is in `[0, 100000)` read signed. -/
def InRange (eo ei : SE.Idx → BitVec 32) : Prop :=
  ∀ e : Fin 6400000, (0 ≤ (eo (ix1 e)).toInt ∧ (eo (ix1 e)).toInt < 100000) ∧ (0 ≤ (ei (ix1 e)).toInt ∧ (ei (ix1 e)).toInt < 100000)

/-- The weight of an edge whose displacement has the coordinates `d0`, `d1`, `d2`. -/
def wgt (d0 d1 d2 : EReal) : EReal := Ideal.rsqrt (d0 * d0 + d1 * d1 + d2 * d2)

section
variable (x : SX.Idx → EReal) (pin pout : SP.Idx → EReal) (eo ei : SE.Idx → BitVec 32)

/-- Coordinate `k` of edge `e`'s displacement. -/
def disp (e : Fin 6400000) (k : Fin 3) : EReal := one + pin (ix2 (cl (ei (ix1 e))) k) - pout (ix2 (cl (eo (ix1 e))) k)

/-- Edge `e`'s weight. -/
def wt (e : Fin 6400000) : EReal := wgt (disp pin pout eo ei e 0) (disp pin pout eo ei e 1) (disp pin pout eo ei e 2)

/-- The edges whose target is point `n`. -/
def edges (n : Fin 100000) : Finset (Fin 6400000) := Finset.univ.filter fun e => (eo (ix1 e)).toInt = (n.val : ℤ)

/-- The weighted sum of field `b` over the edges into `n`, on the zero the accumulator starts from. -/
def num (b : Fin 8) (n : Fin 100000) : EReal :=
  zero + ∑ e ∈ edges eo n, x (ix2 b (cl (ei (ix1 e)))) * wt pin pout eo ei e

/-- The sum of the weights of the edges into `n`, on the zero the accumulator starts from. -/
def dem (n : Fin 100000) : EReal := zero + ∑ e ∈ edges eo n, wt pin pout eo ei e

end

/-! ## The arrays the kernel region reads and writes -/

/-- The stacked coordinate rows the region reads: rows 0–2 the source point's coordinates per edge, rows 3–5 the target's. -/
def coords (pin pout : SP.Idx → EReal) (eo ei : SE.Idx → BitVec 32) : S6E.Idx → EReal := fun j =>
  if h : (j 0).val < 3 then pin (ix2 (cl (ei (ix1 (j 1)))) ⟨(j 0).val, h⟩)
  else pout (ix2 (cl (eo (ix1 (j 1)))) ⟨(j 0).val - 3, by have h6 : (j 0).val < 6 := (j 0).isLt; omega⟩)

/-- The gathered features the region reads: row `b`, edge `e` is `x (b, ei e)`. -/
def xg (x : SX.Idx → EReal) (ei : SE.Idx → BitVec 32) : S8E.Idx → EReal := fun j => x (ix2 (j 0) (cl (ei (ix1 (j 1)))))

/-- An edge's weight read off stacked coordinate rows. -/
def wOf (cs : S6E.Idx → EReal) (e : Fin 6400000) : EReal :=
  wgt (one + cs (ix2 (0 : Fin 6) e) - cs (ix2 (3 : Fin 6) e)) (one + cs (ix2 (1 : Fin 6) e) - cs (ix2 (4 : Fin 6) e))
    (one + cs (ix2 (2 : Fin 6) e) - cs (ix2 (5 : Fin 6) e))

/-- What the region writes, over what it reads: rows 0–7 the features times the edge's weight, row 8 the weight. -/
def vwOf (cs : S6E.Idx → EReal) (xs : S8E.Idx → EReal) : S9E.Idx → EReal := fun j =>
  if h : (j 0).val < 8 then xs (ix2 ⟨(j 0).val, h⟩ (j 1)) * wOf cs (j 1) else wOf cs (j 1)

/-- Read off the stacked rows of the gathered coordinates, an edge's weight is the weight of its displacement. -/
theorem wOf_coords (pin pout : SP.Idx → EReal) (eo ei : SE.Idx → BitVec 32) (e : Fin 6400000) :
    wOf (coords pin pout eo ei) e = wt pin pout eo ei e := rfl

/-- A feature row of what the region writes. -/
theorem vwOf_row (pin pout : SP.Idx → EReal) (x : SX.Idx → EReal) (eo ei : SE.Idx → BitVec 32) (b : Fin 8) (e : Fin 6400000) :
    vwOf (coords pin pout eo ei) (xg x ei) (ix2 ⟨b.val, by omega⟩ e) = x (ix2 b (cl (ei (ix1 e)))) * wt pin pout eo ei e := by
  unfold vwOf
  rw [dif_pos (show ((ix2 (⟨b.val, by omega⟩ : Fin 9) e : S9E.Idx) 0).val < 8 from b.isLt)]
  rfl

/-- The weight row of what the region writes. -/
theorem vwOf_last (pin pout : SP.Idx → EReal) (x : SX.Idx → EReal) (eo ei : SE.Idx → BitVec 32) (e : Fin 6400000) :
    vwOf (coords pin pout eo ei) (xg x ei) (ix2 (8 : Fin 9) e) = wt pin pout eo ei e := by
  unfold vwOf
  rw [dif_neg (show ¬ ((ix2 (8 : Fin 9) e : S9E.Idx) 0).val < 8 from Nat.lt_irrefl 8)]
  rfl

/-- The quotient both programs end with: a numerator over its denominator where that is positive, over one otherwise. -/
def quot (nu de : EReal) : EReal := Ideal.div nu (Scalar.select (FloatOps.cmpf (F := Ideal) (φ := .f32) .ogt de zero) de one)

/-- The result array. -/
def result (x : SX.Idx → EReal) (pin pout : SP.Idx → EReal) (eo ei : SE.Idx → BitVec 32) : SX.Idx → EReal :=
  fun j => quot (num x pin pout eo ei (j 0) (j 1)) (dem pin pout eo ei (j 1))

/-- A word in range is its own clamp. -/
theorem cl_val {w : BitVec 32} (h0 : 0 ≤ w.toInt) (h1 : w.toInt < 100000) : ((cl w).val : ℤ) = w.toInt := by
  unfold cl
  simp only []
  omega

/-- A squared length is nonnegative, whatever extended reals the coordinates are. -/
theorem sq_len_nonneg (d0 d1 d2 : EReal) : 0 ≤ d0 * d0 + d1 * d1 + d2 * d2 := by
  have h : ∀ d : EReal, 0 ≤ d * d := fun d => by
    rcases le_total 0 d with hd | hd
    · exact mul_nonneg hd hd
    · have := EReal.mul_nonneg_iff.mpr (Or.inr ⟨hd, hd⟩)
      exact this
  exact add_nonneg (add_nonneg (h d0) (h d1)) (h d2)

end Cert.Spec

end
-- ==== Proof.PreRange.lean ====
/-
  The index ranges the precondition states, read back: the printed predicate being one says, among other things,
  that every word of both edge arrays is at least 0 and below 100 000 read signed.
-/
import proofs.«431084_j53017076302315_2_alg».proof.Pre_finite_inputs
import proofs.«431084_j53017076302315_2_alg».proof.Proof.Spec
import Idealize.ShloMosaic.Lib.ReduceAll
import Idealize.ShloMosaic.Lib.StableHlo.Predicate

noncomputable section

namespace Cert.PreRange

open Idealize.ShloMosaic Idealize.ShloMosaic.ValueIdx
open Cert.Pre_finite_inputs (S_ S6400000)

/-- The rank-0 shape has one index. -/
instance subsingleton_scalar_idx : Subsingleton S_.Idx := ⟨fun a b => funext fun d => d.elim0⟩

/-- A word that tests at least 0 and below 100 000, both signed, lies in that range read signed. -/
theorem range_of_cmp (w : BitVec 32) (h0 : IntOp.cmpi .sge w 0#32 = 1#1) (h1 : IntOp.cmpi .slt w 100000#32 = 1#1) :
    0 ≤ w.toInt ∧ w.toInt < 100000 := by
  rw [IntOp.cmpi_sge, show (0#32 : BitVec 32).toInt = 0 from by decide] at h0
  rw [IntOp.cmpi_slt, show (100000#32 : BitVec 32).toInt = 100000 from by decide] at h1
  exact ⟨h0, h1⟩

/-- If the conjunction over all positions of "at least 0" and "below 100 000" (each against the broadcast constant)
    is one, every word of the array lies in the range. -/
theorem range_of_all (a : IVec S6400000 32) (hb : S_.BroadcastsInDim S6400000 (![] : Fin 0 → Fin S6400000.rank))
    (hr : S6400000.ReducesTo [0] S_) (hS : 0 < S_.numel) (j : S_.Idx)
    (e : Host.reduce IntOp.andi
        (andi (cmpi .sge a (broadcastInDim S6400000 ![] hb (constantI S_ 32 0#32)))
          (cmpi .slt a (broadcastInDim S6400000 ![] hb (constantI S_ 32 100000#32))))
        (constantI S_ 1 1#1) hr hS j = 1#1) (i : S6400000.Idx) :
    0 ≤ (a i).toInt ∧ (a i).toInt < 100000 := by
  have hi := Host.reduce_andi_all _ _ hr hS j e i
  obtain ⟨h0, h1⟩ := IntOp.andi_eq_one.1 hi
  exact range_of_cmp (a i) h0 h1

theorem inRange_of_pre {F : FTy → Type} [FloatOps F] [Cert.Pre_finite_inputs.Facts]
    (a0 : FVec F Cert.Pre_finite_inputs.S8x100000 .f32) (a1 a2 : FVec F Cert.Pre_finite_inputs.S100000x3 .f32)
    (a3 a4 : IVec Cert.Pre_finite_inputs.S6400000 32)
    (h : Cert.Pre_finite_inputs.fn (F := F) a0 a1 a2 a3 a4 = fun _ => 1#1) : Cert.Spec.InRange a3 a4 := by
  have h0 := congrFun h ValueIdx.ix0
  dsimp only [Cert.Pre_finite_inputs.fn, Cert.Pre_finite_inputs.fn_part1] at h0
  -- the predicate is (finiteness ∧ range of the first array) ∧ range of the second
  obtain ⟨h20, h26⟩ := IntOp.andi_eq_one.1 h0
  obtain ⟨_, h19⟩ := IntOp.andi_eq_one.1 h20
  intro e
  exact ⟨range_of_all a3 _ _ _ _ h19 (ix1 e), range_of_all a4 _ _ _ _ h26 (ix1 e)⟩

end Cert.PreRange

end
-- ==== Proof.KernelPrefixTerm.lean ====
/-
  The host operations before the kernel region, as pure functions of the argument arrays: `take` along axis 1 (an index
  below zero first moved up by 100 000; the column gathered at the index clamped into the table; a fill wherever the
  moved index is outside `[0, 99999]`), applied to the two transposed position tables and stacked into six coordinate
  rows per edge, and applied to the features.
-/
import proofs.«431084_j53017076302315_2_alg».proof.KernelIdeal
import Idealize.ShloMosaic.PureOps.Ideal

noncomputable section

namespace Cert.KernelIdeal.Prefix

open Cert.KernelIdeal Idealize.ShloMosaic
open Cert.KernelIdeal.Facts₀ Cert.KernelIdeal.Facts

variable [Cert.KernelIdeal.Facts]

/-- The index column of a take: a negative index moved up by the table's length. -/
def wrapIdx (idx : IVec S6400000 32) : IVec S6400000x1 32 :=
  broadcastInDim S6400000x1 ![0] bcast_S6400000_S6400000x1_0
    (select (cmpi .slt idx (broadcastInDim S6400000 ![] bcast_S_S6400000 (constantI S_ 32 0#32)))
      (addi idx (broadcastInDim S6400000 ![] bcast_S_S6400000 (constantI S_ 32 100000#32))) idx)

/-- Which moved indices lie inside the table. -/
def inMask (idx : IVec S6400000 32) : IVec S6400000 1 :=
  Host.reduce IntOp.andi
    (andi (cmpi .sge (wrapIdx idx) (broadcastInDim S6400000x1 ![] bcast_S_S6400000x1 (constantI S_ 32 0#32)))
      (cmpi .sle (wrapIdx idx) (broadcastInDim S6400000x1 ![0, 1] bcast_S1x1_S6400000x1_0_1
        (broadcastInDim S1x1 ![1] bcast_S1_S1x1_1 (constantI S1 32 99999#32)))))
    (constantI S_ 1 1#1) reducesTo_S6400000x1_S6400000_d1 h_S_

/-- `take(table, idx, axis = 1)` of a three-row table. -/
def take3 (tab : FVec Ideal S3x100000 .f32) (idx : IVec S6400000 32) : FVec Ideal S3x6400000 .f32 :=
  select (broadcastInDim S3x6400000 ![1] bcast_S6400000_S3x6400000_1 (inMask idx))
    (Host.gather gather_S3x100000_S6400000x1_S3x6400000_0_1_n_n_1_1_31 tab (wrapIdx idx))
    (broadcastInDim S3x6400000 ![] bcast_S_S3x6400000 (constant (F := Ideal) S_ .f32 0x7FC00000#32))

/-- The same of an eight-row table. -/
def take8 (tab : FVec Ideal S8x100000 .f32) (idx : IVec S6400000 32) : FVec Ideal S8x6400000 .f32 :=
  select (broadcastInDim S8x6400000 ![1] bcast_S6400000_S8x6400000_1 (inMask idx))
    (Host.gather gather_S8x100000_S6400000x1_S8x6400000_0_1_n_n_1_1_81 tab (wrapIdx idx))
    (broadcastInDim S8x6400000 ![] bcast_S_S8x6400000 (constant (F := Ideal) S_ .f32 0x7FC00000#32))

/-- The six coordinate rows the region reads: the source rows over the target rows. -/
def coordsTerm (pin pout : FVec Ideal S100000x3 .f32) (eo ei : IVec S6400000 32) : FVec Ideal S6x6400000 .f32 :=
  concatenate S6x6400000 0
    [⟨S3x6400000, take3 (transpose S3x100000 [1, 0] pin transposes_S100000x3_S3x100000_1_0) ei⟩,
     ⟨S3x6400000, take3 (transpose S3x100000 [1, 0] pout transposes_S100000x3_S3x100000_1_0) eo⟩]
    concatenates_S3x6400000_S3x6400000_S6x6400000_d0

/-- The feature rows the region reads. -/
def xgTerm (x : FVec Ideal S8x100000 .f32) (ei : IVec S6400000 32) : FVec Ideal S8x6400000 .f32 := take8 x ei

end Cert.KernelIdeal.Prefix

end
-- ==== Proof.KernelPrefixXg.lean ====
/-
  The gathered feature rows the kernel region finds, as one function of the argument arrays.

  Before the region the program takes the columns of the feature table at the source indices. Here the gathered array,
  as the region finds it, is shown to be that one function (`xgTerm`) of the argument arrays as launched: the
  operations are composed in order from the launched buffers, and no operation writes an argument array.
-/
import proofs.«431084_j53017076302315_2_alg».proof.Proof.Gen.KernelIdeal.Frame
import proofs.«431084_j53017076302315_2_alg».proof.Proof.KernelPrefixTerm
import Idealize.ShloMosaic.Lib.StableHlo.Run

noncomputable section

namespace Cert.KernelIdeal.Prefix

open Idealize.ShloMosaic Idealize.ShloMosaic.TcCoe
open Idealize.SL.Sem
open Cert.KernelIdeal Cert.KernelIdeal.Gen

variable (m : (ℓ : Loc nD τ sig) → Buf (Elt Ideal) ℓ)

namespace Xg

/-- A value written through a typed reference and read back through it is itself. -/
theorem ofBuf_toBuf {T : BufTy} (x : StableHlo.TRef sig T) (v : T.Contents (Elt Ideal)) : x.ofBuf (x.toBuf v) = v := by
  obtain ⟨r, h1, h2, h3⟩ := x
  subst h1
  rfl

/-! The buffers the called function shares with its caller hold values of the types it states: read or written through
    those types, a value is itself. -/
theorem ofBuf_arg4 (x : IVec S6400000 32) :
    (StableHlo.TRef.of main_arg4 : StableHlo.TRef sig ⟨S6400000, .i32⟩).ofBuf (Val := Elt Ideal) x = x := rfl
theorem ofBuf_arg0 (x : FVec Ideal S8x100000 .f32) :
    (StableHlo.TRef.of main_arg0 : StableHlo.TRef sig ⟨S8x100000, .f32⟩).ofBuf (Val := Elt Ideal) x = x := rfl
theorem toBuf_v5 (x : FVec Ideal S8x6400000 .f32) :
    (StableHlo.TRef.of main_v5 : StableHlo.TRef sig ⟨S8x6400000, .f32⟩).toBuf (Val := Elt Ideal) x = x := rfl

/-- The take of the feature table, from any buffer contents: its columns at the source indices. -/
theorem after_v5 (W : Valuation τ sig (Elt Ideal)) :
    (StableHlo.after (List.flatten [Gen.hostOps0 (F := Ideal), Gen.hostOps0_1, Gen.hostOps0_2, Gen.hostOps0_3, Gen.hostOps0_4]) W
        (Proc.devRef .tc main_v5) : S8x6400000.Idx → EReal)
      = xgTerm (W (Proc.devRef .tc main_arg0)) (W (Proc.devRef .tc main_arg4)) := by
  simp only [Gen.hostOps0, Gen.hostOps0_1, Gen.hostOps0_2, Gen.hostOps0_3, Gen.hostOps0_4, List.flatten_cons, List.flatten_nil,
    List.append_nil, List.cons_append, List.nil_append]
  after_results_simp
  simp only [ofBuf_toBuf]
  rw [toBuf_v5, ofBuf_arg4, ofBuf_arg0]
  rfl

end Xg

/-- The gathered feature rows, as the region finds them, are the one term at the launched argument arrays. -/
theorem V_xg_term' (c : Dev nD) :
    (Gen.V (F := Ideal) m c main_v5 : S8x6400000.Idx → EReal)
      = xgTerm (m ((c.tc : Thread nD τ).loc main_arg0)) (m ((c.tc : Thread nD τ).loc main_arg4)) := by
  exact Xg.after_v5 (fun b => m (c, b))

end Cert.KernelIdeal.Prefix

end
-- ==== Proof.KernelPrefixCoords.lean ====
/-
  The coordinate rows the kernel region finds, as one function of the argument arrays.

  Before the region the program transposes the two position tables, takes the columns of the first at the source
  indices and of the second at the target indices, and stacks the two results into six rows per edge. Here the stacked
  array, as the region finds it, is shown to be that one function (`coordsTerm`) of the argument arrays as launched:
  the operations are composed in order from the launched buffers, and no operation writes an argument array.
-/
import proofs.«431084_j53017076302315_2_alg».proof.Proof.Gen.KernelIdeal.Frame
import proofs.«431084_j53017076302315_2_alg».proof.Proof.KernelPrefixTerm
import Idealize.ShloMosaic.Lib.StableHlo.Run

noncomputable section

namespace Cert.KernelIdeal.Prefix

open Idealize.ShloMosaic Idealize.ShloMosaic.TcCoe
open Idealize.SL.Sem
open Cert.KernelIdeal Cert.KernelIdeal.Gen

variable (m : (ℓ : Loc nD τ sig) → Buf (Elt Ideal) ℓ)

namespace Coords

/-! ## Reading through typed references -/

/-- A value written through a typed reference and read back through it is itself. -/
theorem ofBuf_toBuf {T : BufTy} (x : StableHlo.TRef sig T) (v : T.Contents (Elt Ideal)) : x.ofBuf (x.toBuf v) = v := by
  obtain ⟨r, h1, h2, h3⟩ := x
  subst h1
  rfl

/-! The buffers a called function shares with its caller hold values of the types it states: read or written through
    those types, a value is itself. -/
theorem ofBuf_arg4 (x : IVec S6400000 32) :
    (StableHlo.TRef.of main_arg4 : StableHlo.TRef sig ⟨S6400000, .i32⟩).ofBuf (Val := Elt Ideal) x = x := rfl
theorem ofBuf_arg3 (x : IVec S6400000 32) :
    (StableHlo.TRef.of main_arg3 : StableHlo.TRef sig ⟨S6400000, .i32⟩).ofBuf (Val := Elt Ideal) x = x := rfl
theorem ofBuf_v0 (x : FVec Ideal S3x100000 .f32) :
    (StableHlo.TRef.of main_v0 : StableHlo.TRef sig ⟨S3x100000, .f32⟩).ofBuf (Val := Elt Ideal) x = x := rfl
theorem ofBuf_v1 (x : FVec Ideal S3x100000 .f32) :
    (StableHlo.TRef.of main_v1 : StableHlo.TRef sig ⟨S3x100000, .f32⟩).ofBuf (Val := Elt Ideal) x = x := rfl
theorem toBuf_v2 (x : FVec Ideal S3x6400000 .f32) :
    (StableHlo.TRef.of main_v2 : StableHlo.TRef sig ⟨S3x6400000, .f32⟩).toBuf (Val := Elt Ideal) x = x := rfl
theorem toBuf_v3 (x : FVec Ideal S3x6400000 .f32) :
    (StableHlo.TRef.of main_v3 : StableHlo.TRef sig ⟨S3x6400000, .f32⟩).toBuf (Val := Elt Ideal) x = x := rfl

/-! ## The two takes, from any buffer contents -/

/-- The first take: the transposed source table's columns at the source indices. -/
theorem after_v2 (W : Valuation τ sig (Elt Ideal)) :
    (StableHlo.after (List.flatten [Gen.hostOps0 (F := Ideal), Gen.hostOps0_1, Gen.hostOps0_2]) W (Proc.devRef .tc main_v2) : S3x6400000.Idx → EReal)
      = take3 (transpose S3x100000 [1, 0] (W (Proc.devRef .tc main_arg1)) transposes_S100000x3_S3x100000_1_0) (W (Proc.devRef .tc main_arg4)) := by
  simp only [Gen.hostOps0, Gen.hostOps0_1, Gen.hostOps0_2, List.flatten_cons, List.flatten_nil, List.append_nil, List.cons_append, List.nil_append]
  after_results_simp
  simp only [ofBuf_toBuf]
  rw [toBuf_v2, ofBuf_arg4, ofBuf_v0]
  rfl

/-- The second take: the transposed target table's columns at the target indices. -/
theorem after_v3 (W : Valuation τ sig (Elt Ideal)) :
    (StableHlo.after (List.flatten [Gen.hostOps0 (F := Ideal), Gen.hostOps0_1, Gen.hostOps0_2]) W (Proc.devRef .tc main_v3) : S3x6400000.Idx → EReal)
      = take3 (transpose S3x100000 [1, 0] (W (Proc.devRef .tc main_arg2)) transposes_S100000x3_S3x100000_1_0) (W (Proc.devRef .tc main_arg3)) := by
  simp only [Gen.hostOps0, Gen.hostOps0_1, Gen.hostOps0_2, List.flatten_cons, List.flatten_nil, List.append_nil, List.cons_append, List.nil_append]
  after_results_simp
  simp only [ofBuf_toBuf]
  rw [toBuf_v3, ofBuf_arg3, ofBuf_v1]
  rfl

/-! ## The stacked rows -/

/-- Operations run one list after another are the two lists run as one. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih (op.result W)

/-- The stacked coordinate rows, from any buffer contents: the first take over the second. -/
theorem after_v4 (W : Valuation τ sig (Elt Ideal)) :
    (StableHlo.after (List.flatten [Gen.hostOps0 (F := Ideal), Gen.hostOps0_1, Gen.hostOps0_2, Gen.hostOps0_3, Gen.hostOps0_4]) W
        (Proc.devRef .tc main_v4) : S6x6400000.Idx → EReal)
      = coordsTerm (W (Proc.devRef .tc main_arg1)) (W (Proc.devRef .tc main_arg2)) (W (Proc.devRef .tc main_arg3)) (W (Proc.devRef .tc main_arg4)) := by
  have hsplit : List.flatten [Gen.hostOps0 (F := Ideal), Gen.hostOps0_1, Gen.hostOps0_2, Gen.hostOps0_3, Gen.hostOps0_4]
      = List.flatten [Gen.hostOps0 (F := Ideal), Gen.hostOps0_1, Gen.hostOps0_2] ++ List.flatten [Gen.hostOps0_3 (F := Ideal), Gen.hostOps0_4] := by
    simp only [List.flatten_cons, List.flatten_nil, List.append_nil, List.append_assoc]
  rw [hsplit, after_append]
  have h2 := after_v2 W
  have h3 := after_v3 W
  generalize StableHlo.after (List.flatten [Gen.hostOps0 (F := Ideal), Gen.hostOps0_1, Gen.hostOps0_2]) W = W' at h2 h3 ⊢
  simp only [Gen.hostOps0_3, Gen.hostOps0_4, List.flatten_cons, List.flatten_nil, List.append_nil, List.cons_append, List.nil_append]
  after_results_simp
  delta coordsTerm
  exact congrArg₂ (fun a b => concatenate S6x6400000 0 [⟨S3x6400000, a⟩, ⟨S3x6400000, b⟩] concatenates_S3x6400000_S3x6400000_S6x6400000_d0) h2 h3

end Coords

/-- The stacked coordinate rows, as the region finds them, are the one term at the launched argument arrays. -/
theorem V_coords_term (c : Dev nD) :
    (Gen.V (F := Ideal) m c main_v4 : S6x6400000.Idx → EReal)
      = coordsTerm (m ((c.tc : Thread nD τ).loc main_arg1)) (m ((c.tc : Thread nD τ).loc main_arg2)) (m ((c.tc : Thread nD τ).loc main_arg3)) (m ((c.tc : Thread nD τ).loc main_arg4)) := by
  exact Coords.after_v4 (fun b => m (c, b))

end Cert.KernelIdeal.Prefix

end
-- ==== Proof.LibSegment.lean ====
/-
  General lemmas: a segment sum written as a scatter-add, and two index gathers, read at one element
  (at the extended reals).

  `jax.ops.segment_sum(v, ids, num_segments = C)` lowers to a `stablehlo.scatter` with an `add` body over the
  ids as an `[N, 1]` index array: update row `n` lands on segment `ids[n]` (read signed; an id outside
  `[0, C)` is dropped). At the extended reals the result at segment `c` is the operand there plus the sum of the
  updates whose id is `c` — for a vector of updates (`scatterAdd_seg1`) and for a matrix of updates scattered by
  rows (`scatterAdd_seg2`). `x[idx]` for a vector `x : [N]` and `idx : [R]` lowers to a gather over the indices as
  `[R, 1]`: element `r` is `x` at `idx[r]` read signed and clamped into `[0, N − 1]` (`gather_take1_apply`).
  `jnp.take_along_axis(x, idx[:, None], axis = 1)` for `x : [R, C]` lowers to a gather batched over the rows with
  indices `[R, 1, 1]`: element `(r, 0)` is `x[r, ·]` at `idx[r]` read signed and clamped into `[0, C − 1]`
  (`gather_along_apply`).
-/
import Idealize.ShloMosaic.PureOps.Ideal
import Idealize.ShloMosaic.Lib.ValueIdx

noncomputable section

namespace Cert.LibSegment

open Idealize.ShloMosaic Idealize.ShloMosaic.ValueIdx

/-! ## Index sets, and when an update lands on an element -/

/-- A rank-1 index set is its one coordinate range. -/
def idxEquiv1 {n : Nat} : (⟨1, ![n]⟩ : Shape).Idx ≃ Fin n where
  toFun i := i 0
  invFun := ix1
  left_inv i := (eq_ix1 i).symm
  right_inv _ := rfl

/-- An update index lands on operand index `i` exactly when, on every operand axis, the signed start plus the
    window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · rw [Option.some.injEq]
    constructor
    · intro e a
      rw [← e]
      have := h a
      simp only []
      omega
    · intro e
      funext a
      refine Fin.ext ?_
      have := e a
      simp only []
      omega
  · constructor
    · intro e; cases e
    · intro e
      refine absurd (fun a => ?_) h
      have := e a
      have := (i a).isLt
      omega

/-! ## Segment sums -/

/-- The scatter dimension numbers of a segment sum of a vector: operand `[C]`, ids `[N, 1]`, updates `[N]`. -/
abbrev segDims1 (N C : Nat) (wf : ScatterDims.WF ⟨1, ![C]⟩ ⟨2, ![N, 1]⟩ ⟨1, ![N]⟩ [] [0] [0] 1) :
    ScatterDims ⟨1, ![C]⟩ ⟨2, ![N, 1]⟩ ⟨1, ![N]⟩ where
  updateWindowDims := []
  insertedWindowDims := [0]
  scatterDimsToOperandDims := [0]
  indexVectorDim := 1
  wf := wf

/-- For a vector's segment sum the start of update `n` on the one operand axis is id `n` read signed. -/
theorem seg1_start {N C w : Nat} (wf : ScatterDims.WF ⟨1, ![C]⟩ ⟨2, ![N, 1]⟩ ⟨1, ![N]⟩ [] [0] [0] 1)
    (idx : IVec ⟨2, ![N, 1]⟩ w) (n : Fin N) :
    (segDims1 N C wf).start (ix1 n) idx 0 = (idx (ix2 n (0 : Fin 1))).toInt := by
  unfold ScatterDims.start
  rw [dif_pos (show (0 : Fin 1) ∈ (segDims1 N C wf).scatterDimsToOperandDims from List.mem_singleton.mpr rfl)]
  have hsi : (segDims1 N C wf).siIdx (ix1 n) ⟨List.idxOf (0 : Fin 1) (segDims1 N C wf).scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

/-- A vector's segment sum has no window axis: the window coordinate on the operand's axis is zero. -/
theorem seg1_window {N C : Nat} (wf : ScatterDims.WF ⟨1, ![C]⟩ ⟨2, ![N, 1]⟩ ⟨1, ![N]⟩ [] [0] [0] 1)
    (j : (⟨1, ![N]⟩ : Shape).Idx) : (segDims1 N C wf).window j 0 = 0 := by
  unfold ScatterDims.window
  rw [dif_neg]
  show (0 : Fin 1) ∉ (List.finRange 1).filter (· ∉ [(0 : Fin 1)])
  decide

/-- A segment sum of a vector, at segment `c`: the operand there plus the updates whose id is `c`. -/
theorem scatterAdd_seg1 {N C w : Nat} (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal) (c : Fin C) :
    Ideal.hostScatterAdd (segDims1 N C wf) x idx upd (ix1 c)
      = x (ix1 c) + ∑ n ∈ Finset.univ.filter (fun n : Fin N => (idx (ix2 n (0 : Fin 1))).toInt = (c.val : ℤ)), upd (ix1 n) := by
  unfold Ideal.hostScatterAdd
  congr 1
  refine (Finset.sum_equiv idxEquiv1.symm (fun n => ?_) (fun n _ => rfl)).symm
  rw [Finset.mem_filter, Finset.mem_filter, resultIdx?_eq_some_iff]
  simp only [Finset.mem_univ, true_and]
  show _ ↔ ∀ a, (segDims1 N C wf).start (ix1 n) idx a + ((segDims1 N C wf).window (ix1 n) a : ℤ) = (((ix1 c : (⟨1, ![C]⟩ : Shape).Idx) a).val : ℤ)
  rw [Fin.forall_fin_one, seg1_start, seg1_window]
  simp

/-- The scatter dimension numbers of a segment sum of a matrix by rows: operand `[C, B]`, ids `[N, 1]`, updates `[N, B]`. -/
abbrev segDims2 (N C B : Nat) (wf : ScatterDims.WF ⟨2, ![C, B]⟩ ⟨2, ![N, 1]⟩ ⟨2, ![N, B]⟩ [1] [0] [0] 1) :
    ScatterDims ⟨2, ![C, B]⟩ ⟨2, ![N, 1]⟩ ⟨2, ![N, B]⟩ where
  updateWindowDims := [1]
  insertedWindowDims := [0]
  scatterDimsToOperandDims := [0]
  indexVectorDim := 1
  wf := wf

section Seg2
variable {N C B w : Nat} (wf : ScatterDims.WF ⟨2, ![C, B]⟩ ⟨2, ![N, 1]⟩ ⟨2, ![N, B]⟩ [1] [0] [0] 1)
  (idx : IVec ⟨2, ![N, 1]⟩ w)

/-- For a matrix's segment sum by rows the start of update `(n, b')` on the segment axis is id `n` read signed. -/
theorem seg2_start0 (n : Fin N) (b' : Fin B) :
    (segDims2 N C B wf).start (ix2 n b') idx 0 = (idx (ix2 n (0 : Fin 1))).toInt := by
  unfold ScatterDims.start
  rw [dif_pos (show (0 : Fin 2) ∈ (segDims2 N C B wf).scatterDimsToOperandDims from List.mem_singleton.mpr rfl)]
  have hsi : (segDims2 N C B wf).siIdx (ix2 n b') ⟨List.idxOf (0 : Fin 2) (segDims2 N C B wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- The column axis is not a scattered axis: its start is zero. -/
theorem seg2_start1 (j : (⟨2, ![N, B]⟩ : Shape).Idx) : (segDims2 N C B wf).start j idx 1 = 0 := by
  unfold ScatterDims.start
  rw [dif_neg]
  show (1 : Fin 2) ∉ [(0 : Fin 2)]
  decide

/-- The segment axis is an inserted axis: its window coordinate is zero. -/
theorem seg2_window0 (j : (⟨2, ![N, B]⟩ : Shape).Idx) : (segDims2 N C B wf).window j 0 = 0 := by
  unfold ScatterDims.window
  rw [dif_neg]
  show (0 : Fin 2) ∉ (List.finRange 2).filter (· ∉ [(0 : Fin 2)])
  decide

/-- The column axis is the one window axis: its window coordinate is the update's column. -/
theorem seg2_window1 (n : Fin N) (b' : Fin B) : (segDims2 N C B wf).window (ix2 n b') 1 = b'.val := by
  unfold ScatterDims.window
  have h1 : (1 : Fin 2) ∈ (segDims2 N C B wf).sKept := by
    show (1 : Fin 2) ∈ (List.finRange 2).filter (· ∉ [(0 : Fin 2)])
    decide
  rw [dif_pos h1]
  rfl

/-- Update `(n, b')` lands on `(c, b)` exactly when id `n` read signed is `c` and the columns agree. -/
theorem seg2_resultIdx?_iff (n : Fin N) (b' : Fin B) (c : Fin C) (b : Fin B) :
    (segDims2 N C B wf).resultIdx? (ix2 n b') idx = some (ix2 c b)
      ↔ (idx (ix2 n (0 : Fin 1))).toInt = (c.val : ℤ) ∧ b' = b := by
  rw [resultIdx?_eq_some_iff, Fin.forall_fin_two]
  show (segDims2 N C B wf).start (ix2 n b') idx 0 + ((segDims2 N C B wf).window (ix2 n b') 0 : ℤ) = (c.val : ℤ) ∧
     (segDims2 N C B wf).start (ix2 n b') idx 1 + ((segDims2 N C B wf).window (ix2 n b') 1 : ℤ) = (b.val : ℤ) ↔ _
  rw [seg2_start0, seg2_start1, seg2_window0, seg2_window1, Fin.ext_iff]
  omega

end Seg2

/-- A segment sum of a matrix by rows, at segment `c` and column `b`: the operand there plus column `b` of the update
    rows whose id is `c`. -/
theorem scatterAdd_seg2 {N C B w : Nat} (wf : ScatterDims.WF ⟨2, ![C, B]⟩ ⟨2, ![N, 1]⟩ ⟨2, ![N, B]⟩ [1] [0] [0] 1)
    (x : (⟨2, ![C, B]⟩ : Shape).Idx → EReal) (idx : IVec ⟨2, ![N, 1]⟩ w) (upd : (⟨2, ![N, B]⟩ : Shape).Idx → EReal)
    (c : Fin C) (b : Fin B) :
    Ideal.hostScatterAdd (segDims2 N C B wf) x idx upd (ix2 c b)
      = x (ix2 c b) + ∑ n ∈ Finset.univ.filter (fun n : Fin N => (idx (ix2 n (0 : Fin 1))).toInt = (c.val : ℤ)), upd (ix2 n b) := by
  unfold Ideal.hostScatterAdd
  congr 1
  have key : ∀ j : (⟨2, ![N, B]⟩ : Shape).Idx, (segDims2 N C B wf).resultIdx? j idx = some (ix2 c b) →
      (idx (ix2 (idxEquiv2 j).1 (0 : Fin 1))).toInt = (c.val : ℤ) ∧ j = ix2 (idxEquiv2 j).1 b := by
    intro j hj
    obtain ⟨n, b', rfl⟩ : ∃ n b', j = ix2 n b' := ⟨_, _, eq_ix2 j⟩
    obtain ⟨h1, rfl⟩ := (seg2_resultIdx?_iff wf idx n b' c b).mp hj
    exact ⟨h1, rfl⟩
  refine Finset.sum_nbij' (fun j => (idxEquiv2 j).1) (fun n => ix2 n b) ?_ ?_ ?_ ?_ ?_
  · intro j hj
    rw [Finset.mem_filter] at hj ⊢
    exact ⟨Finset.mem_univ _, (key j hj.2).1⟩
  · intro n hn
    rw [Finset.mem_filter] at hn ⊢
    exact ⟨Finset.mem_univ _, (seg2_resultIdx?_iff wf idx n b c b).mpr ⟨hn.2, rfl⟩⟩
  · intro j hj
    rw [Finset.mem_filter] at hj
    exact (key j hj.2).2.symm
  · intro n _
    rfl
  · intro j hj
    rw [Finset.mem_filter] at hj
    exact congrArg upd (key j hj.2).2

/-! ## Index gathers -/

section Gather
variable {α : Type}

/-- The gather dimension numbers of `x[idx]` for `x : [N]`, `idx : [R]` given as `[R, 1]`. -/
abbrev takeDims1 (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- `x[idx]` at element `r`: `x` at `idx[r]` read signed and clamped into `[0, N − 1]`. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (takeDims1 N R wf) x idx (ix1 r) = x (ix1 ⟨min (idx (ix2 r (0 : Fin 1))).toInt.toNat (N - 1), by omega⟩) := by
  unfold Host.gather
  congr 1
  funext a
  obtain rfl : a = 0 := Subsingleton.elim _ _
  refine Fin.ext ?_
  show (takeDims1 N R wf).start (ix1 r) idx 0 + (takeDims1 N R wf).batchCoord (ix1 r) 0
    + (takeDims1 N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims1 N R wf).startIndexMap from List.mem_singleton.mpr rfl)]
  have hsi : (takeDims1 N R wf).siIdx (ix1 r) ⟨List.idxOf (0 : Fin 1) (takeDims1 N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The gather dimension numbers of `take_along_axis(x, idx, axis = 1)` for `x : [R, C]`, `idx : [R, 1]` given as `[R, 1, 1]`. -/
abbrev alongDims (R C : Nat) (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- `take_along_axis` at row `r`: row `r` of `x` at `idx[r]` read signed and clamped into `[0, C − 1]`. -/
theorem gather_along_apply {R C w : Nat} (hC : 0 < C)
    (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ w) (r : Fin R) :
    Host.gather (alongDims R C wf) x idx (ix2 r (0 : Fin 1))
      = x (ix2 r ⟨min (idx (ix3 r (0 : Fin 1) (0 : Fin 1))).toInt.toNat (C - 1), by omega⟩) := by
  unfold Host.gather
  congr 1
  have h0 : (alongDims R C wf).start (ix2 r (0 : Fin 1)) idx 0 + (alongDims R C wf).batchCoord (ix2 r (0 : Fin 1)) 0
      + (alongDims R C wf).offCoord (ix2 r (0 : Fin 1)) 0 = r.val := by
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  have h1 : (alongDims R C wf).start (ix2 r (0 : Fin 1)) idx 1 + (alongDims R C wf).batchCoord (ix2 r (0 : Fin 1)) 1
      + (alongDims R C wf).offCoord (ix2 r (0 : Fin 1)) 1 = min (idx (ix3 r (0 : Fin 1) (0 : Fin 1))).toInt.toNat (C - 1) := by
    rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R C wf).startIndexMap from List.mem_singleton.mpr rfl)]
    have hsi : (alongDims R C wf).siIdx (ix2 r (0 : Fin 1)) ⟨List.idxOf (1 : Fin 2) (alongDims R C wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl
  funext a
  refine Fin.ext ?_
  match a with
  | ⟨0, _⟩ => exact h0
  | ⟨1, _⟩ => exact h1

end Gather

end Cert.LibSegment

end
-- ==== Proof.LibIndexed.lean ====
/-
  General lemmas, at the extended reals: index gathers of a matrix by rows and by columns read at one element, a
  scatter-add of a matrix by columns read at one element, and the reciprocal square root as a quotient.

  `table[idx]` for a matrix `table : [N, K]` and `idx : [R]` lowers to a gather over the indices as `[R, 1]` whose
  slices are whole rows: element `(r, k)` is `table` at row `idx[r]`, read signed and clamped into `[0, N − 1]`, column
  `k` (`gather_rows_apply`). `take(table, idx, axis = 1)` for `table : [K, N]` gathers whole columns: element `(k, r)` is
  `table` at row `k`, column `idx[r]` read signed and clamped (`gather_cols_apply`). `zeros([B, C]).at[:, idx].add(u)` for
  `u : [B, N]` lowers to a scatter with an `add` body whose windows are whole columns: update column `n` lands on column
  `idx[n]` (read signed; a column outside `[0, C)` is dropped), so the result at `(b, c)` is the operand there plus the
  sum of `u (b, n)` over the `n` whose index is `c` (`scatterAdd_cols`). On a nonnegative extended real the reciprocal
  square root is one over the square root, corners included: both are `⊤` at `0` and `0` at `⊤` (`rsqrt_eq_one_div_sqrt`).
-/
import Idealize.ShloMosaic.PureOps.Ideal
import Idealize.ShloMosaic.Lib.ValueIdx
import proofs.«431084_j53017076302315_2_alg».proof.Proof.LibSegment

noncomputable section

namespace Cert.LibIndexed

open Idealize.ShloMosaic Idealize.ShloMosaic.ValueIdx

/-! ## Gathers of whole rows and of whole columns -/

section Gather
variable {α : Type}

/-- The gather dimension numbers of `table[idx]` for `table : [N, K]`, `idx : [R]` given as `[R, 1]`. -/
abbrev rowsDims (N K R : Nat) (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- `table[idx]` at `(r, k)`: row `idx[r]` of the table, read signed and clamped into `[0, N − 1]`, at column `k`. -/
theorem gather_rows_apply {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (r : Fin R) (k : Fin K) :
    Host.gather (rowsDims N K R wf) x idx (ix2 r k)
      = x (ix2 ⟨min (idx (ix2 r (0 : Fin 1))).toInt.toNat (N - 1), by omega⟩ k) := by
  unfold Host.gather
  congr 1
  have h0 : (rowsDims N K R wf).start (ix2 r k) idx 0 + (rowsDims N K R wf).batchCoord (ix2 r k) 0
      + (rowsDims N K R wf).offCoord (ix2 r k) 0 = min (idx (ix2 r (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N K R wf).startIndexMap from List.mem_singleton.mpr rfl)]
    have hsi : (rowsDims N K R wf).siIdx (ix2 r k) ⟨List.idxOf (0 : Fin 2) (rowsDims N K R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have h1 : (rowsDims N K R wf).start (ix2 r k) idx 1 + (rowsDims N K R wf).batchCoord (ix2 r k) 1
      + (rowsDims N K R wf).offCoord (ix2 r k) 1 = k.val := by
    rw [GatherDims.batchCoord_eq_zero _ _ _ List.not_mem_nil]
    have hs : (rowsDims N K R wf).start (ix2 r k) idx 1 = 0 := by
      unfold GatherDims.start
      rw [dif_neg]
      show (1 : Fin 2) ∉ [(0 : Fin 2)]
      decide
    rw [hs]
    simp only [Nat.add_zero, Nat.zero_add]
    unfold GatherDims.offCoord
    have hk : (1 : Fin 2) ∈ (rowsDims N K R wf).sKept := by
      rw [GatherDims.mem_sKept]
      exact ⟨by show (1 : Fin 2) ∉ [(0 : Fin 2)]; decide, List.not_mem_nil⟩
    rw [dif_pos hk]
    rfl
  funext a
  refine Fin.ext ?_
  match a with
  | ⟨0, _⟩ => exact h0
  | ⟨1, _⟩ => exact h1

/-- The gather dimension numbers of `take(table, idx, axis = 1)` for `table : [K, N]`, `idx : [R]` given as `[R, 1]`. -/
abbrev colsDims (K N R : Nat) (wf : GatherDims.WF ⟨2, ![K, N]⟩ ⟨2, ![R, 1]⟩ ⟨2, ![K, R]⟩ [0] [1] [] [1] [] 1 ![K, 1]) :
    GatherDims ⟨2, ![K, N]⟩ ⟨2, ![R, 1]⟩ ⟨2, ![K, R]⟩ where
  offsetDims := [0]
  collapsedSliceDims := [1]
  operandBatchingDims := []
  startIndicesBatchingDims := []
  startIndexMap := [1]
  indexVectorDim := 1
  sliceSizes := ![K, 1]
  wf := wf

/-- `take(table, idx, axis = 1)` at `(k, r)`: row `k` of the table at column `idx[r]`, read signed and clamped into
    `[0, N − 1]`. -/
theorem gather_cols_apply {K N R w : Nat} (hN : 0 < N)
    (wf : GatherDims.WF ⟨2, ![K, N]⟩ ⟨2, ![R, 1]⟩ ⟨2, ![K, R]⟩ [0] [1] [] [1] [] 1 ![K, 1])
    (x : (⟨2, ![K, N]⟩ : Shape).Idx → α) (idx : IVec ⟨2, ![R, 1]⟩ w) (k : Fin K) (r : Fin R) :
    Host.gather (colsDims K N R wf) x idx (ix2 k r)
      = x (ix2 k ⟨min (idx (ix2 r (0 : Fin 1))).toInt.toNat (N - 1), by omega⟩) := by
  unfold Host.gather
  congr 1
  have h0 : (colsDims K N R wf).start (ix2 k r) idx 0 + (colsDims K N R wf).batchCoord (ix2 k r) 0
      + (colsDims K N R wf).offCoord (ix2 k r) 0 = k.val := by
    rw [GatherDims.batchCoord_eq_zero _ _ _ List.not_mem_nil]
    have hs : (colsDims K N R wf).start (ix2 k r) idx 0 = 0 := by
      unfold GatherDims.start
      rw [dif_neg]
      show (0 : Fin 2) ∉ [(1 : Fin 2)]
      decide
    rw [hs]
    simp only [Nat.add_zero, Nat.zero_add]
    unfold GatherDims.offCoord
    have hk : (0 : Fin 2) ∈ (colsDims K N R wf).sKept := by
      rw [GatherDims.mem_sKept]
      exact ⟨by show (0 : Fin 2) ∉ [(1 : Fin 2)]; decide, List.not_mem_nil⟩
    rw [dif_pos hk]
    rfl
  have h1 : (colsDims K N R wf).start (ix2 k r) idx 1 + (colsDims K N R wf).batchCoord (ix2 k r) 1
      + (colsDims K N R wf).offCoord (ix2 k r) 1 = min (idx (ix2 r (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims K N R wf).startIndexMap from List.mem_singleton.mpr rfl)]
    have hsi : (colsDims K N R wf).siIdx (ix2 k r) ⟨List.idxOf (1 : Fin 2) (colsDims K N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  funext a
  refine Fin.ext ?_
  match a with
  | ⟨0, _⟩ => exact h0
  | ⟨1, _⟩ => exact h1

end Gather

/-! ## A scatter-add of whole columns -/

/-- The scatter dimension numbers of `operand.at[:, idx].add(u)`: operand `[B, C]`, indices `[N, 1]`, updates `[B, N]`. -/
abbrev colsScatter (B C N : Nat) (wf : ScatterDims.WF ⟨2, ![B, C]⟩ ⟨2, ![N, 1]⟩ ⟨2, ![B, N]⟩ [0] [1] [1] 1) :
    ScatterDims ⟨2, ![B, C]⟩ ⟨2, ![N, 1]⟩ ⟨2, ![B, N]⟩ where
  updateWindowDims := [0]
  insertedWindowDims := [1]
  scatterDimsToOperandDims := [1]
  indexVectorDim := 1
  wf := wf

section Cols
variable {B C N w : Nat} (wf : ScatterDims.WF ⟨2, ![B, C]⟩ ⟨2, ![N, 1]⟩ ⟨2, ![B, N]⟩ [0] [1] [1] 1)
  (idx : IVec ⟨2, ![N, 1]⟩ w)

/-- The row axis is not a scattered axis: its start is zero. -/
theorem cols_start0 (j : (⟨2, ![B, N]⟩ : Shape).Idx) : (colsScatter B C N wf).start j idx 0 = 0 := by
  unfold ScatterDims.start
  rw [dif_neg]
  show (0 : Fin 2) ∉ [(1 : Fin 2)]
  decide

/-- The start of update `(b', n)` on the column axis is index `n` read signed. -/
theorem cols_start1 (b' : Fin B) (n : Fin N) :
    (colsScatter B C N wf).start (ix2 b' n) idx 1 = (idx (ix2 n (0 : Fin 1))).toInt := by
  unfold ScatterDims.start
  rw [dif_pos (show (1 : Fin 2) ∈ (colsScatter B C N wf).scatterDimsToOperandDims from List.mem_singleton.mpr rfl)]
  have hsi : (colsScatter B C N wf).siIdx (ix2 b' n) ⟨List.idxOf (1 : Fin 2) (colsScatter B C N wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- The row axis is the one window axis: its window coordinate is the update's row. -/
theorem cols_window0 (b' : Fin B) (n : Fin N) : (colsScatter B C N wf).window (ix2 b' n) 0 = b'.val := by
  unfold ScatterDims.window
  have h0 : (0 : Fin 2) ∈ (colsScatter B C N wf).sKept := by
    show (0 : Fin 2) ∈ (List.finRange 2).filter (· ∉ [(1 : Fin 2)])
    decide
  rw [dif_pos h0]
  rfl

/-- The column axis is an inserted axis: its window coordinate is zero. -/
theorem cols_window1 (j : (⟨2, ![B, N]⟩ : Shape).Idx) : (colsScatter B C N wf).window j 1 = 0 := by
  unfold ScatterDims.window
  rw [dif_neg]
  show (1 : Fin 2) ∉ (List.finRange 2).filter (· ∉ [(1 : Fin 2)])
  decide

/-- Update `(b', n)` lands on `(b, c)` exactly when the rows agree and index `n` read signed is `c`. -/
theorem cols_resultIdx?_iff (b' : Fin B) (n : Fin N) (b : Fin B) (c : Fin C) :
    (colsScatter B C N wf).resultIdx? (ix2 b' n) idx = some (ix2 b c)
      ↔ b' = b ∧ (idx (ix2 n (0 : Fin 1))).toInt = (c.val : ℤ) := by
  rw [Cert.LibSegment.resultIdx?_eq_some_iff, Fin.forall_fin_two]
  show (colsScatter B C N wf).start (ix2 b' n) idx 0 + ((colsScatter B C N wf).window (ix2 b' n) 0 : ℤ) = (b.val : ℤ) ∧
     (colsScatter B C N wf).start (ix2 b' n) idx 1 + ((colsScatter B C N wf).window (ix2 b' n) 1 : ℤ) = (c.val : ℤ) ↔ _
  rw [cols_start0, cols_start1, cols_window0, cols_window1, Fin.ext_iff]
  omega

end Cols

/-- A scatter-add of whole columns, at `(b, c)`: the operand there plus row `b` of the update columns whose index is `c`. -/
theorem scatterAdd_cols {B C N w : Nat} (wf : ScatterDims.WF ⟨2, ![B, C]⟩ ⟨2, ![N, 1]⟩ ⟨2, ![B, N]⟩ [0] [1] [1] 1)
    (x : (⟨2, ![B, C]⟩ : Shape).Idx → EReal) (idx : IVec ⟨2, ![N, 1]⟩ w) (upd : (⟨2, ![B, N]⟩ : Shape).Idx → EReal)
    (b : Fin B) (c : Fin C) :
    Ideal.hostScatterAdd (colsScatter B C N wf) x idx upd (ix2 b c)
      = x (ix2 b c) + ∑ n ∈ Finset.univ.filter (fun n : Fin N => (idx (ix2 n (0 : Fin 1))).toInt = (c.val : ℤ)), upd (ix2 b n) := by
  unfold Ideal.hostScatterAdd
  congr 1
  have key : ∀ j : (⟨2, ![B, N]⟩ : Shape).Idx, (colsScatter B C N wf).resultIdx? j idx = some (ix2 b c) →
      (idx (ix2 (idxEquiv2 j).2 (0 : Fin 1))).toInt = (c.val : ℤ) ∧ j = ix2 b (idxEquiv2 j).2 := by
    intro j hj
    obtain ⟨b', n, rfl⟩ : ∃ b' n, j = ix2 b' n := ⟨_, _, eq_ix2 j⟩
    obtain ⟨rfl, h1⟩ := (cols_resultIdx?_iff wf idx b' n b c).mp hj
    exact ⟨h1, rfl⟩
  refine Finset.sum_nbij' (fun j => (idxEquiv2 j).2) (fun n => ix2 b n) ?_ ?_ ?_ ?_ ?_
  · intro j hj
    rw [Finset.mem_filter] at hj ⊢
    exact ⟨Finset.mem_univ _, (key j hj.2).1⟩
  · intro n hn
    rw [Finset.mem_filter] at hn ⊢
    exact ⟨Finset.mem_univ _, (cols_resultIdx?_iff wf idx b n b c).mpr ⟨rfl, hn.2⟩⟩
  · intro j hj
    rw [Finset.mem_filter] at hj
    exact (key j hj.2).2.symm
  · intro n _
    rfl
  · intro j hj
    rw [Finset.mem_filter] at hj
    exact congrArg upd (key j hj.2).2

/-! ## The reciprocal square root -/

/-- On a nonnegative extended real the reciprocal square root is one over the square root: `⊤` at `0`, `0` at `⊤`, and
    the inverse of the real square root in between. -/
theorem rsqrt_eq_one_div_sqrt {x : EReal} (hx : 0 ≤ x) : Ideal.rsqrt x = Ideal.div 1 (Ideal.sqrt x) := by
  induction x using EReal.rec with
  | bot => exact absurd hx (by simp)
  | top => simp [Ideal.div]
  | coe r =>
    have hr : 0 ≤ r := by exact_mod_cast hx
    rw [Ideal.rsqrt_coe, Ideal.sqrt_coe, if_neg (not_lt.mpr hr), if_neg (not_lt.mpr hr)]
    by_cases h0 : r = 0
    · subst h0
      simp [Ideal.div]
    · rw [if_neg h0]
      have hpos : 0 < r := lt_of_le_of_ne hr (Ne.symm h0)
      have hs : Real.sqrt r ≠ 0 := (Real.sqrt_pos.mpr hpos).ne'
      unfold Ideal.div
      rw [if_neg (by exact_mod_cast hs), one_mul, ← EReal.coe_inv]

end Cert.LibIndexed

end
-- ==== Proof.KernelPrefixValue.lean ====
/-
  The arrays the kernel region reads, from the host operations before it, at the extended reals.

  A take along axis 1 first adds 100000 to a negative index word, gathers the whole column at the word clamped into the
  table, and keeps the gathered value where the moved word lies in [0, 99999], a fill elsewhere. For a word in
  [0, 100000) the offset is never added, the word lies in the table, and the clamp is the word itself: the take at
  (k, e) is the table at row k, column the word e names. The six coordinate rows are the takes of the two transposed
  position tables stacked, rows 0–2 the source point's coordinates and rows 3–5 the target's; the feature rows are
  the take of the feature table at the source words.
-/
import proofs.«431084_j53017076302315_2_alg».proof.Proof.KernelPrefixTerm
import proofs.«431084_j53017076302315_2_alg».proof.Proof.Gen.KernelIdeal
import proofs.«431084_j53017076302315_2_alg».proof.Proof.Spec
import proofs.«431084_j53017076302315_2_alg».proof.Proof.LibIndexed
import Idealize.ShloMosaic.Lib.ValueIdx
import Idealize.ShloMosaic.Lib.ValueLayout
import Idealize.ShloMosaic.Lib.Pipeline.Value

noncomputable section

namespace Cert.KernelIdeal.Prefix

open Idealize.ShloMosaic Idealize.ShloMosaic.ValueIdx
open Cert.KernelIdeal Cert.KernelIdeal.Facts₀ Cert.KernelIdeal.Facts

/-! ## Index words in range -/

/-- A word that reads nonnegative does not test below zero. -/
theorem slt_zero_of_nonneg {w : BitVec 32} (h0 : 0 ≤ w.toInt) : IntOp.cmpi .slt w 0#32 = 0#1 := by
  have hz : (0#32 : BitVec 32).toInt = 0 := by decide
  show BitVec.ofBool (decide (w.toInt < (0#32 : BitVec 32).toInt)) = 0#1
  rw [hz, decide_eq_false (by omega)]
  rfl

/-- It tests at least zero. -/
theorem sge_zero_of_nonneg {w : BitVec 32} (h0 : 0 ≤ w.toInt) : IntOp.cmpi .sge w 0#32 = 1#1 := by
  have hz : (0#32 : BitVec 32).toInt = 0 := by decide
  show BitVec.ofBool (decide ((0#32 : BitVec 32).toInt ≤ w.toInt)) = 1#1
  rw [hz, decide_eq_true h0]
  rfl

/-- A word that reads below 100000 tests at most 99999. -/
theorem sle_last_of_lt {w : BitVec 32} (h1 : w.toInt < 100000) : IntOp.cmpi .sle w 99999#32 = 1#1 := by
  have hz : (99999#32 : BitVec 32).toInt = 99999 := by decide
  show BitVec.ofBool (decide (w.toInt ≤ (99999#32 : BitVec 32).toInt)) = 1#1
  rw [hz, decide_eq_true (by omega)]
  rfl

/-- Folding `and` from one over bits that are all one leaves one. -/
theorem foldl_andi_ones {ι : Type} (f : ι → BitVec 1) (hf : ∀ n, f n = 1#1) (l : List ι) :
    l.foldl (fun r n => IntOp.andi r (f n)) 1#1 = 1#1 := by
  induction l with
  | nil => rfl
  | cons a l ih =>
    rw [List.foldl_cons, hf a]
    exact ih

/-- An `and` reduction, started from one, of an array whose bits are all one is one at every result index. -/
theorem reduce_andi_ones {s t u : Shape} {axes : List (Fin s.rank)} (x : IVec s 1) (init : IVec u 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  exact foldl_andi_ones (fun n => x (s.rowMajor.symm n)) (fun n => hx _) _

/-! ## One take read at an element, for words in range -/

/-- The program's gather of a three-row table is the gather of whole columns. -/
theorem gather3_cols : gather_S3x100000_S6400000x1_S3x6400000_0_1_n_n_1_1_31
    = Cert.LibIndexed.colsDims 3 100000 6400000 Facts₀.gather_S3x100000_S6400000x1_S3x6400000_0_1_n_n_1_1_31_wf := rfl

/-- The program's gather of an eight-row table is the gather of whole columns. -/
theorem gather8_cols : gather_S8x100000_S6400000x1_S8x6400000_0_1_n_n_1_1_81
    = Cert.LibIndexed.colsDims 8 100000 6400000 Facts₀.gather_S8x100000_S6400000x1_S8x6400000_0_1_n_n_1_1_81_wf := rfl

section Take
variable (idx : IVec S6400000 32) (hidx : ∀ e : Fin 6400000, 0 ≤ (idx (ix1 e)).toInt ∧ (idx (ix1 e)).toInt < 100000)
include hidx

/-- No word is negative, so none is moved: the index column at row `e` is word `e`. -/
theorem wrapIdx_apply (e : Fin 6400000) (u : Fin 1) : wrapIdx idx (ix2 e u) = idx (ix1 e) := by
  unfold wrapIdx
  rw [broadcastInDim_apply _ _ _ (ix2 e u) (ix1 e) (fun a => match a with | ⟨0, _⟩ => rfl)]
  show Scalar.select (IntOp.cmpi .slt (idx (ix1 e)) 0#32) (IntOp.addi (idx (ix1 e)) 100000#32) (idx (ix1 e)) = idx (ix1 e)
  rw [slt_zero_of_nonneg (hidx e).1, select_zero]

/-- Every word lies inside the table. -/
theorem inMask_apply (j : S6400000.Idx) : inMask idx j = 1#1 := by
  unfold inMask
  refine reduce_andi_ones _ _ _ _ (fun i => ?_) rfl j
  obtain ⟨e, u, rfl⟩ : ∃ (e : Fin 6400000) (u : Fin 1), i = ix2 e u := ⟨i 0, i 1, eq_ix2 i⟩
  show IntOp.andi (IntOp.cmpi .sge (wrapIdx idx (ix2 e u)) 0#32) (IntOp.cmpi .sle (wrapIdx idx (ix2 e u)) 99999#32) = 1#1
  rw [wrapIdx_apply idx hidx, sge_zero_of_nonneg (hidx e).1, sle_last_of_lt (hidx e).2]
  rfl

/-- The take of a three-row table at `(k, e)`: row `k` of the table at the column word `e` names. -/
theorem take3_apply (tab : FVec Ideal S3x100000 .f32) (k : Fin 3) (e : Fin 6400000) :
    take3 tab idx (ix2 k e) = tab (ix2 k (Cert.Spec.cl (idx (ix1 e)))) := by
  unfold take3
  rw [select_apply]
  have hc : broadcastInDim S3x6400000 ![1] bcast_S6400000_S3x6400000_1 (inMask idx) (ix2 k e) = 1#1 := inMask_apply idx hidx _
  rw [hc, select_one, gather3_cols, Cert.LibIndexed.gather_cols_apply (by decide)]
  refine congrArg tab (congrArg (ix2 k) (Fin.ext ?_))
  show min (wrapIdx idx (ix2 e (0 : Fin 1))).toInt.toNat (100000 - 1) = min (idx (ix1 e)).toInt.toNat (100000 - 1)
  rw [wrapIdx_apply idx hidx]

/-- The take of an eight-row table at `(k, e)`. -/
theorem take8_apply (tab : FVec Ideal S8x100000 .f32) (k : Fin 8) (e : Fin 6400000) :
    take8 tab idx (ix2 k e) = tab (ix2 k (Cert.Spec.cl (idx (ix1 e)))) := by
  unfold take8
  rw [select_apply]
  have hc : broadcastInDim S8x6400000 ![1] bcast_S6400000_S8x6400000_1 (inMask idx) (ix2 k e) = 1#1 := inMask_apply idx hidx _
  rw [hc, select_one, gather8_cols, Cert.LibIndexed.gather_cols_apply (by decide)]
  refine congrArg tab (congrArg (ix2 k) (Fin.ext ?_))
  show min (wrapIdx idx (ix2 e (0 : Fin 1))).toInt.toNat (100000 - 1) = min (idx (ix1 e)).toInt.toNat (100000 - 1)
  rw [wrapIdx_apply idx hidx]

/-- The take of a transposed position table at `(k, e)`: coordinate `k` of the point word `e` names. -/
theorem take3_transpose_apply (p : FVec Ideal S100000x3 .f32) (k : Fin 3) (e : Fin 6400000) :
    take3 (transpose S3x100000 [1, 0] p transposes_S100000x3_S3x100000_1_0) idx (ix2 k e)
      = p (ix2 (Cert.Spec.cl (idx (ix1 e))) k) := by
  rw [take3_apply idx hidx]
  exact transpose_ix2_apply p _ k (Cert.Spec.cl (idx (ix1 e)))

end Take

/-! ## The two arrays the region reads -/

section Coords
variable (pin pout : FVec Ideal S100000x3 .f32) (eo ei : IVec S6400000 32) (hR : Cert.Spec.InRange eo ei)
include hR

/-- Rows 0–2 of the stacked coordinates are the source point's coordinates. -/
theorem coordsTerm_apply_source (r : Fin 6) (h : r.val < 3) (e : Fin 6400000) :
    coordsTerm pin pout eo ei (ix2 r e) = pin (ix2 (Cert.Spec.cl (ei (ix1 e))) ⟨r.val, h⟩) := by
  unfold coordsTerm
  refine (concatenate_pair_apply_left (t := S6x6400000) (s₁ := S3x6400000) (s₂ := S3x6400000) (0 : Fin 2) _ _ _ (ix2 r e) rfl
    (ix2 (⟨r.val, h⟩ : Fin 3) e) (fun b => match b with | ⟨0, _⟩ => rfl | ⟨1, _⟩ => rfl)).trans ?_
  exact take3_transpose_apply ei (fun e => (hR e).2) pin ⟨r.val, h⟩ e

/-- Rows 3–5 of the stacked coordinates are the target point's coordinates. -/
theorem coordsTerm_apply_target (r : Fin 6) (h : 3 ≤ r.val) (e : Fin 6400000) :
    coordsTerm pin pout eo ei (ix2 r e)
      = pout (ix2 (Cert.Spec.cl (eo (ix1 e))) ⟨r.val - 3, by have := r.isLt; omega⟩) := by
  have h3 : r.val - 3 < 3 := by have := r.isLt; omega
  unfold coordsTerm
  refine (concatenate_pair_apply_right (t := S6x6400000) (s₁ := S3x6400000) (s₂ := S3x6400000) (0 : Fin 2) _ _ _ (ix2 r e) rfl rfl
    (ix2 (⟨r.val - 3, h3⟩ : Fin 3) e)
    (fun b hb => match b, hb with | ⟨0, _⟩, hb => absurd rfl hb | ⟨1, _⟩, _ => rfl)
    (by show r.val - 3 + 3 = r.val; omega)).trans ?_
  exact take3_transpose_apply eo (fun e => (hR e).1) pout ⟨r.val - 3, h3⟩ e

end Coords

/-- The feature rows the region reads are the features gathered at the source words. -/
theorem xgTerm_eq (x : Cert.Spec.SX.Idx → EReal) (eo ei : Cert.Spec.SE.Idx → BitVec 32) (hR : Cert.Spec.InRange eo ei) :
    xgTerm x ei = Cert.Spec.xg x ei := by
  funext j
  obtain ⟨k, e, rfl⟩ : ∃ (k : Fin 8) (e : Fin 6400000), j = ix2 k e := ⟨j 0, j 1, eq_ix2 j⟩
  exact take8_apply ei (fun e => (hR e).2) x k e

/-- The six coordinate rows the region reads are the source coordinates over the target coordinates. -/
theorem coordsTerm_eq (pin pout : Cert.Spec.SP.Idx → EReal) (eo ei : Cert.Spec.SE.Idx → BitVec 32) (hR : Cert.Spec.InRange eo ei) :
    coordsTerm pin pout eo ei = Cert.Spec.coords pin pout eo ei := by
  funext j
  obtain ⟨r, e, rfl⟩ : ∃ (r : Fin 6) (e : Fin 6400000), j = ix2 r e := ⟨j 0, j 1, eq_ix2 j⟩
  unfold Cert.Spec.coords
  by_cases h : r.val < 3
  · rw [dif_pos (show ((ix2 r e : Cert.Spec.S6E.Idx) 0).val < 3 from h)]
    exact coordsTerm_apply_source pin pout eo ei hR r h e
  · rw [dif_neg (show ¬ ((ix2 r e : Cert.Spec.S6E.Idx) 0).val < 3 from h)]
    exact coordsTerm_apply_target pin pout eo ei hR r (by omega) e

end Cert.KernelIdeal.Prefix

end
-- ==== Proof.KernelRegion.lean ====
/-
  The kernel region's output array, as one function of the two arrays the region reads.

  The region runs over 80 grid points. Point `t` reads columns `[80000 t, 80000 (t + 1))` of the stacked coordinate
  rows (six rows) and of the gathered feature rows (eight rows), and writes the same columns of the nine output rows:
  rows 0–7 are the feature rows times the edge's weight, row 8 is the weight, the weight being the reciprocal square
  root of the squared length of the displacement `1 + source − target` read off the coordinate rows. The blocks tile
  the array, so the array ends holding that function at every index.
-/
import proofs.«431084_j53017076302315_2_alg».proof.Proof.Gen.KernelIdeal.Frame
import proofs.«431084_j53017076302315_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## What one grid point leaves in the output block -/

/-- The weight of column `q` of a block of six coordinate rows: rows 0–2 the source's coordinates, rows 3–5 the target's. -/
def wBlk (x0 : S6x80000.Idx → EReal) (q : Fin 80000) : EReal :=
  Cert.Spec.wgt (Cert.Spec.one + x0 (ix2 (0 : Fin 6) q) - x0 (ix2 (3 : Fin 6) q))
    (Cert.Spec.one + x0 (ix2 (1 : Fin 6) q) - x0 (ix2 (4 : Fin 6) q))
    (Cert.Spec.one + x0 (ix2 (2 : Fin 6) q) - x0 (ix2 (5 : Fin 6) q))

/-- The output block over the two input blocks: rows 0–7 the feature rows times the column's weight, row 8 the weight. -/
def outBlk (x0 : S6x80000.Idx → EReal) (x1 : S8x80000.Idx → EReal) : S9x80000.Idx → EReal := fun j =>
  if h : (j 0).val < 8 then x1 (ix2 ⟨(j 0).val, h⟩ (j 1)) * wBlk x0 (j 1) else wBlk x0 (j 1)

theorem hz2 : (![0, 0] : Fin 2 → Nat) = fun _ => 0 := funext fun a => by fin_cases a <;> rfl

/-- Row `o` of the coordinate block read through the one-row rectangle at that row: column `q` of the row. -/
theorem ld_row (X : Vec Ideal S6x80000 .f32) (o : ℕ) (ho : o < 6) (inb) (q : Fin 80000) :
    View.ld (Val := Elt Ideal) (e' := .f32) X (Rect.unit (s := S6x80000) ![o, 0] ![1, 80000] inb) (ix2 (0 : Fin 1) q)
      = X (ix2 (⟨o, ho⟩ : Fin 6) q) := by
  show X _ = X _
  refine congrArg X (funext fun a => Fin.ext ?_)
  match a with
  | ⟨0, _⟩ => show o + 1 * 0 = o; omega
  | ⟨1, _⟩ => show 0 + 1 * q.val = q.val; omega

/-- The weight row the body computes, at column `q`: the reciprocal square root of the squared length of the
    displacement whose coordinates are one plus a source row minus a target row. -/
theorem pay1_apply (v0 v2 v4 v6 v8 v10 : Vec Ideal S1x80000 .f32) (q : Fin 80000) :
    k0_pay1 (F := Ideal) v0 v2 v4 v6 v8 v10 (ix2 (0 : Fin 1) q)
      = Cert.Spec.wgt (Cert.Spec.one + v0 (ix2 (0 : Fin 1) q) - v6 (ix2 (0 : Fin 1) q))
          (Cert.Spec.one + v2 (ix2 (0 : Fin 1) q) - v8 (ix2 (0 : Fin 1) q))
          (Cert.Spec.one + v4 (ix2 (0 : Fin 1) q) - v10 (ix2 (0 : Fin 1) q)) := by
  unfold k0_pay1
  simp only [shapeCast_self]
  rfl

/-- The feature rows the body computes, at row `p` and column `q`: the loaded feature times the weight row's entry. -/
theorem pay2_apply (v0 v2 v4 v6 v8 v10 : Vec Ideal S1x80000 .f32) (v27 : Vec Ideal S8x80000 .f32) (p : Fin 8) (q : Fin 80000) :
    k0_pay2 (F := Ideal) v0 v2 v4 v6 v8 v10 v27 (ix2 p q)
      = v27 (ix2 p q) * k0_pay1 (F := Ideal) v0 v2 v4 v6 v8 v10 (ix2 (0 : Fin 1) q) := by
  unfold k0_pay2
  show shapeCast S8x80000 v27 _ (ix2 p q) * broadcastTo S8x80000 (k0_pay1 (F := Ideal) v0 v2 v4 v6 v8 v10) _ (ix2 p q) = _
  rw [shapeCast_self, broadcastTo_1b_ab_apply]

/-- An element of the weight row's store sits in row 8 of the output block, at its own column. -/
theorem emb_row8 (inb) (q : Fin 80000) :
    (Rect.unit (s := S9x80000) ![8, 0] ![1, 80000] inb).emb (ix2 (0 : Fin 1) q) = ix2 (8 : Fin 9) q := by
  funext a; apply Fin.ext
  match a with
  | ⟨0, _⟩ => show 8 + 1 * 0 = 8; rfl
  | ⟨1, _⟩ => show 0 + 1 * q.val = q.val; omega

/-- An element of the feature rows' store sits in the output block at its own row and column. -/
theorem emb_rows (inb) (p : Fin 8) (q : Fin 80000) :
    (Rect.unit (s := S9x80000) ![0, 0] ![8, 80000] inb).emb (ix2 p q) = ix2 (⟨p.val, by omega⟩ : Fin 9) q := by
  funext a; apply Fin.ext
  match a with
  | ⟨0, _⟩ => show 0 + 1 * p.val = p.val; omega
  | ⟨1, _⟩ => show 0 + 1 * q.val = q.val; omega

/-- Row 8 of the output block is the weight. -/
theorem outBlk_row8 (x0 : S6x80000.Idx → EReal) (x1 : S8x80000.Idx → EReal) (q : Fin 80000) :
    outBlk x0 x1 (ix2 (8 : Fin 9) q) = wBlk x0 q := by
  unfold outBlk
  rw [dif_neg (show ¬ ((ix2 (8 : Fin 9) q : S9x80000.Idx) 0).val < 8 from Nat.lt_irrefl 8)]

/-- Rows 0–7 of the output block are the features times the weight. -/
theorem outBlk_rows (x0 : S6x80000.Idx → EReal) (x1 : S8x80000.Idx → EReal) (p : Fin 8) (q : Fin 80000) :
    outBlk x0 x1 (ix2 (⟨p.val, by omega⟩ : Fin 9) q) = x1 (ix2 p q) * wBlk x0 q := by
  unfold outBlk
  rw [dif_pos (show ((ix2 (⟨p.val, by omega⟩ : Fin 9) q : S9x80000.Idx) 0).val < 8 from p.isLt)]

/-- The weight row over the six loaded coordinate rows is the block's weight. -/
theorem pay1_loads (x0 : Vec Ideal S6x80000 .f32) (i0 i1 i2 i3 i4 i5) (q : Fin 80000) :
    k0_pay1 (F := Ideal)
        (View.ld (Val := Elt Ideal) (e' := .f32) x0 (Rect.unit (s := S6x80000) ![0, 0] ![1, 80000] i0))
        (View.ld (Val := Elt Ideal) (e' := .f32) x0 (Rect.unit (s := S6x80000) ![1, 0] ![1, 80000] i1))
        (View.ld (Val := Elt Ideal) (e' := .f32) x0 (Rect.unit (s := S6x80000) ![2, 0] ![1, 80000] i2))
        (View.ld (Val := Elt Ideal) (e' := .f32) x0 (Rect.unit (s := S6x80000) ![3, 0] ![1, 80000] i3))
        (View.ld (Val := Elt Ideal) (e' := .f32) x0 (Rect.unit (s := S6x80000) ![4, 0] ![1, 80000] i4))
        (View.ld (Val := Elt Ideal) (e' := .f32) x0 (Rect.unit (s := S6x80000) ![5, 0] ![1, 80000] i5))
        (ix2 (0 : Fin 1) q) = wBlk x0 q := by
  rw [pay1_apply, ld_row x0 0 (by omega), ld_row x0 1 (by omega), ld_row x0 2 (by omega), ld_row x0 3 (by omega),
    ld_row x0 4 (by omega), ld_row x0 5 (by omega)]
  rfl

/-- WHAT THE BODY LEAVES in the output's staging buffer: its two stores — the weight row last, the eight feature rows
    before it — are the rows of one function of the block index, and together they cover the block. -/
theorem out_eq (c : Dev nD) (i : grid0.Coords) (a1 : Memref sig .tc .vmem S6x80000 .f32) (h1 : a1.IsWhole)
    (a2 : Memref sig .tc .vmem S8x80000 .f32) (h2 : a2.IsWhole) (a3 : Memref sig .tc .vmem S9x80000 .f32) (h3 : a3.IsWhole)
    (x0 : Vec Ideal S6x80000 .f32) (x1 : Vec Ideal S8x80000 .f32) :
    out0_A_2 (F := Ideal) c i a1 h1 a2 h2 a3 h3 x0 x1 = outBlk x0 x1 := by
  unfold out0_A_2
  rw [View.read_writes_eq_canon _ _ _ (cover0_A_2 c i a1 h1 a2 h2 a3 h3 x0 x1)]
  funext y
  refine View.canon_apply_of_pieces (outBlk x0 x1) _ ?_ y (cover0_A_2 c i a1 h1 a2 h2 a3 h3 x0 x1 y)
  unfold kernelRun0_A
  dsimp only
  sl_unfold_words
  simp only [View.readAt_eq_ld, h1.read_unread, h2.read_unread, View.ld_unit_zero (S := S8x80000) hz2]
  intro p hp
  rcases List.mem_cons.mp hp with rfl | hp
  · intro x
    obtain ⟨a, q, rfl⟩ : ∃ (a : Fin 1) (q : Fin 80000), x = ix2 a q := ⟨x 0, x 1, eq_ix2 x⟩
    obtain rfl : a = 0 := Subsingleton.elim _ _
    dsimp only
    rw [emb_row8, outBlk_row8]
    exact pay1_loads x0 _ _ _ _ _ _ q
  · obtain rfl := List.mem_singleton.mp hp
    intro x
    obtain ⟨p, q, rfl⟩ : ∃ (p : Fin 8) (q : Fin 80000), x = ix2 p q := ⟨x 0, x 1, eq_ix2 x⟩
    dsimp only
    rw [emb_rows, outBlk_rows, pay2_apply]
    exact congrArg (x1 (ix2 p q) * ·) (pay1_loads x0 _ _ _ _ _ _ q)
/-! ## From the blocks to the array -/

/-- The printed index maps, decided once over the 80 grid points: every window's block at point `t` is block `(0, t)`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Column `q` of point `t`'s block of a six-row array is column `80000 t + q` of the array. -/
theorem blk0_apply (t : Fin cfg0.N) (ht : t.val < 80) (A : Vec Ideal S6x6400000 .f32) (r : Fin 6) (q : Fin 80000) :
    ((cfg0.win 0).blk t).view.read (Elt Ideal) A (ix2 r q)
      = A (ix2 r (⟨80000 * t.val + q.val, by omega⟩ : Fin 6400000)) := by
  obtain ⟨e0, e1, -, -, -, -⟩ := idx_facts t
  show A (((cfg0.win 0).blk t).view.emb (ix2 r q)) = A _
  refine congrArg A (funext fun a => Fin.ext ?_)
  match a with
  | ⟨0, _⟩ => show win0_0.index t (0 : Fin 2) * 6 + 1 * r.val = r.val; rw [e0]; omega
  | ⟨1, _⟩ => show win0_0.index t (1 : Fin 2) * 80000 + 1 * q.val = 80000 * t.val + q.val; rw [e1]; omega

/-- Column `q` of point `t`'s block of an eight-row array is column `80000 t + q` of the array. -/
theorem blk1_apply (t : Fin cfg0.N) (ht : t.val < 80) (A : Vec Ideal S8x6400000 .f32) (p : Fin 8) (q : Fin 80000) :
    ((cfg0.win 1).blk t).view.read (Elt Ideal) A (ix2 p q)
      = A (ix2 p (⟨80000 * t.val + q.val, by omega⟩ : Fin 6400000)) := by
  obtain ⟨-, -, e0, e1, -, -⟩ := idx_facts t
  show A (((cfg0.win 1).blk t).view.emb (ix2 p q)) = A _
  refine congrArg A (funext fun a => Fin.ext ?_)
  match a with
  | ⟨0, _⟩ => show win0_1.index t (0 : Fin 2) * 8 + 1 * p.val = p.val; rw [e0]; omega
  | ⟨1, _⟩ => show win0_1.index t (1 : Fin 2) * 80000 + 1 * q.val = 80000 * t.val + q.val; rw [e1]; omega

/-- So the block of coordinate rows point `t` reads is those columns of the array the region finds, -/
theorem iblk0_apply (c : Dev nD) (t : Fin cfg0.N) (ht : t.val < 80) (r : Fin 6) (q : Fin 80000) :
    (iblk (F := Ideal) m c 0 t : Vec Ideal S6x80000 .f32) (ix2 r q)
      = (V (F := Ideal) m c main_v4 : Vec Ideal S6x6400000 .f32) (ix2 r (⟨80000 * t.val + q.val, by omega⟩ : Fin 6400000)) := by
  unfold iblk
  exact blk0_apply t ht (V (F := Ideal) m c main_v4) r q

/-- and the block of feature rows likewise. -/
theorem iblk1_apply (c : Dev nD) (t : Fin cfg0.N) (ht : t.val < 80) (p : Fin 8) (q : Fin 80000) :
    (iblk (F := Ideal) m c 1 t : Vec Ideal S8x80000 .f32) (ix2 p q)
      = (V (F := Ideal) m c main_v5 : Vec Ideal S8x6400000 .f32) (ix2 p (⟨80000 * t.val + q.val, by omega⟩ : Fin 6400000)) := by
  unfold iblk
  exact blk1_apply t ht (V (F := Ideal) m c main_v5) p q

/-- The weight of a block's column is the weight of the array's column it was read from. -/
theorem wBlk_eq (cs : S6x6400000.Idx → EReal) (x0 : S6x80000.Idx → EReal) (T : ℕ) (hT : T < 80)
    (h0 : ∀ (r : Fin 6) (q : Fin 80000), x0 (ix2 r q) = cs (ix2 r (⟨80000 * T + q.val, by omega⟩ : Fin 6400000)))
    (q : Fin 80000) : wBlk x0 q = Cert.Spec.wOf cs (⟨80000 * T + q.val, by omega⟩ : Fin 6400000) := by
  unfold wBlk Cert.Spec.wOf
  rw [h0, h0, h0, h0, h0, h0]

/-- The output block of blocks read at columns `80000 T + ·` of two arrays is the same columns of the region's
    function of those arrays: at row `p` and column `q` of the block, -/
theorem outBlk_eq_vwOf (cs : S6x6400000.Idx → EReal) (xs : S8x6400000.Idx → EReal) (x0 : S6x80000.Idx → EReal)
    (x1 : S8x80000.Idx → EReal) (T : ℕ) (hT : T < 80)
    (h0 : ∀ (r : Fin 6) (q : Fin 80000), x0 (ix2 r q) = cs (ix2 r (⟨80000 * T + q.val, by omega⟩ : Fin 6400000)))
    (h1 : ∀ (p : Fin 8) (q : Fin 80000), x1 (ix2 p q) = xs (ix2 p (⟨80000 * T + q.val, by omega⟩ : Fin 6400000)))
    (p : Fin 9) (q : Fin 80000) :
    outBlk x0 x1 (ix2 p q) = Cert.Spec.vwOf cs xs (ix2 p (⟨80000 * T + q.val, by omega⟩ : Fin 6400000)) := by
  unfold outBlk Cert.Spec.vwOf
  by_cases h : p.val < 8
  · rw [dif_pos (show ((ix2 p q : S9x80000.Idx) 0).val < 8 from h),
      dif_pos (show ((ix2 p (⟨80000 * T + q.val, by omega⟩ : Fin 6400000) : S9x6400000.Idx) 0).val < 8 from h)]
    show x1 (ix2 (⟨p.val, h⟩ : Fin 8) q) * wBlk x0 q
      = xs (ix2 (⟨p.val, h⟩ : Fin 8) (⟨80000 * T + q.val, by omega⟩ : Fin 6400000))
        * Cert.Spec.wOf cs (⟨80000 * T + q.val, by omega⟩ : Fin 6400000)
    rw [wBlk_eq cs x0 T hT h0, h1]
  · rw [dif_neg (show ¬ ((ix2 p q : S9x80000.Idx) 0).val < 8 from h),
      dif_neg (show ¬ ((ix2 p (⟨80000 * T + q.val, by omega⟩ : Fin 6400000) : S9x6400000.Idx) 0).val < 8 from h)]
    exact wBlk_eq cs x0 T hT h0 q

/-- and so at any index of the block and the index of the array with the same row, `80000 T` columns further on. -/
theorem outBlk_eq_vwOf_at (cs : S6x6400000.Idx → EReal) (xs : S8x6400000.Idx → EReal) (x0 : S6x80000.Idx → EReal)
    (x1 : S8x80000.Idx → EReal) (T : ℕ) (hT : T < 80)
    (h0 : ∀ (r : Fin 6) (q : Fin 80000), x0 (ix2 r q) = cs (ix2 r (⟨80000 * T + q.val, by omega⟩ : Fin 6400000)))
    (h1 : ∀ (p : Fin 8) (q : Fin 80000), x1 (ix2 p q) = xs (ix2 p (⟨80000 * T + q.val, by omega⟩ : Fin 6400000)))
    (j : S9x80000.Idx) (i : S9x6400000.Idx) (hi0 : (i 0).val = (j 0).val) (hi1 : (i 1).val = 80000 * T + (j 1).val) :
    outBlk x0 x1 j = Cert.Spec.vwOf cs xs i := by
  obtain ⟨p, q, rfl⟩ : ∃ (p : Fin 9) (q : Fin 80000), j = ix2 p q := ⟨j 0, j 1, eq_ix2 j⟩
  have hq : 80000 * T + q.val < 6400000 := by have := q.isLt; omega
  obtain ⟨p', q', rfl⟩ : ∃ (p' : Fin 9) (q' : Fin 6400000), i = ix2 p' q' := ⟨i 0, i 1, eq_ix2 i⟩
  obtain rfl : p = p' := Fin.ext hi0.symm
  obtain rfl : q' = (⟨80000 * T + q.val, hq⟩ : Fin 6400000) := Fin.ext hi1
  exact outBlk_eq_vwOf cs xs x0 x1 T hT h0 h1 p q

/-- Block `t` of the output window, for any two arrays and any two blocks that are their columns `80000 t + ·`: the
    output block over the blocks is block `t` of the region's function of the arrays. -/
theorem blk2_eq (t : Fin cfg0.N) (ht : t.val < 80) (cs : Vec Ideal S6x6400000 .f32) (xs : Vec Ideal S8x6400000 .f32)
    (x0 : Vec Ideal S6x80000 .f32) (x1 : Vec Ideal S8x80000 .f32)
    (h0 : ∀ (r : Fin 6) (q : Fin 80000), x0 (ix2 r q) = cs (ix2 r (⟨80000 * t.val + q.val, by omega⟩ : Fin 6400000)))
    (h1 : ∀ (p : Fin 8) (q : Fin 80000), x1 (ix2 p q) = xs (ix2 p (⟨80000 * t.val + q.val, by omega⟩ : Fin 6400000))) :
    (cfg0.win 2).cut (grid0.coords t) (outBlk x0 x1)
      = ((cfg0.win 2).blk t).view.read (Elt Ideal) (Cert.Spec.vwOf cs xs) := by
  obtain ⟨-, -, -, -, e0, e1⟩ := idx_facts t
  funext j
  show outBlk x0 x1 j = Cert.Spec.vwOf cs xs (((cfg0.win 2).blk t).view.emb j)
  refine outBlk_eq_vwOf_at cs xs x0 x1 t.val ht h0 h1 j (((cfg0.win 2).blk t).view.emb j) ?_ ?_
  · show win0_2.index t (0 : Fin 2) * 9 + 1 * (j 0).val = (j 0).val; rw [e0]; omega
  · show win0_2.index t (1 : Fin 2) * 80000 + 1 * (j 1).val = 80000 * t.val + (j 1).val; rw [e1]; omega

/-- WHAT POINT `t` WRITES BACK is block `t` of the region's function of the two arrays it reads. -/
theorem flushed_eq (c : Dev nD) (t : Fin cfg0.N) :
    (dats (F := Ideal) m 0 c).flushed 2 t
      = ((cfg0.win 2).blk t).view.read (Elt Ideal) (Cert.Spec.vwOf (V (F := Ideal) m c main_v4) (V (F := Ideal) m c main_v5)) := by
  have ht : t.val < 80 := by have := t.isLt; have hN : cfg0.N = 80 := N_0; omega
  show (cfg0.win 2).cut (grid0.coords t) ((dats (F := Ideal) m 0 c).after 2 t) = _
  rw [after0_2]
  unfold outsAt0
  rw [out_eq c (grid0.coords t) (ms0_0 t) (hs0_0 t) (ms0_1 t) (hs0_1 t) (ms0_2 t) (hs0_2 t) (iblk (F := Ideal) m c 0 t)
    (iblk (F := Ideal) m c 1 t)]
  exact blk2_eq t ht (V (F := Ideal) m c main_v4) (V (F := Ideal) m c main_v5) (iblk (F := Ideal) m c 0 t)
    (iblk (F := Ideal) m c 1 t) (iblk0_apply m c t ht) (iblk1_apply m c t ht)

/-- An index of the output array is in point `t`'s block iff each coordinate is in the block's range on its axis. -/
theorem mem_blk (t : Fin cfg0.N) (i : S9x6400000.Idx) :
    i ∈ ((cfg0.win 2).blk t).view.set
      ↔ ∀ a : Fin 2, win0_2.index t a * S9x80000.size a ≤ (i a).val ∧ (i a).val < win0_2.index t a * S9x80000.size a + S9x80000.size a := by
  show i ∈ ((View.whole main_v6).slice (win0_2.rect t)).set ↔ _
  rw [View.set_slice_whole, Rect.mem_set_unit]
  exact Iff.rfl

/-- The blocks tile the array: column `e` is in the block of point `e / 80000`, which writes it back. -/
theorem cover (i : S9x6400000.Idx) :
    ∃ t : Fin cfg0.N, (cfg0.win 2).flush t = true ∧ i ∈ ((cfg0.win 2).blk t).view.set := by
  have hN : cfg0.N = 80 := N_0
  have h0 : (i 0).val < 9 := idx2_lt0 i
  have h1 : (i 1).val < 6400000 := idx2_lt1 i
  have hq : (i 1).val / 80000 < cfg0.N := by omega
  have e0 : win0_2.index ⟨(i 1).val / 80000, hq⟩ (0 : Fin 2) = 0 := (idx_facts ⟨(i 1).val / 80000, hq⟩).2.2.2.2.1
  have e1 : win0_2.index ⟨(i 1).val / 80000, hq⟩ (1 : Fin 2) = (i 1).val / 80000 := (idx_facts ⟨(i 1).val / 80000, hq⟩).2.2.2.2.2
  refine ⟨⟨(i 1).val / 80000, hq⟩, flush0_2 _, ?_⟩
  rw [mem_blk]
  intro a
  match a with
  | ⟨0, _⟩ =>
    show win0_2.index ⟨(i 1).val / 80000, hq⟩ (0 : Fin 2) * 9 ≤ (i 0).val
      ∧ (i 0).val < win0_2.index ⟨(i 1).val / 80000, hq⟩ (0 : Fin 2) * 9 + 9
    rw [e0]; omega
  | ⟨1, _⟩ =>
    show win0_2.index ⟨(i 1).val / 80000, hq⟩ (1 : Fin 2) * 80000 ≤ (i 1).val
      ∧ (i 1).val < win0_2.index ⟨(i 1).val / 80000, hq⟩ (1 : Fin 2) * 80000 + 80000
    rw [e1]; omega

/-- The region's output array after the run is the weighted features and the weights of the arrays it reads. -/
theorem region_out (c : Dev nD) :
    ((Gen.dats (F := Ideal) m 0 c).arrAt 2 cfg0.N : S9x6400000.Idx → EReal)
      = Cert.Spec.vwOf (Gen.V (F := Ideal) m c main_v4) (Gen.V (F := Ideal) m c main_v5) :=
  (dats (F := Ideal) m 0 c).arrAt_eq_of_cover 2 (Cert.Spec.vwOf (V (F := Ideal) m c main_v4) (V (F := Ideal) m c main_v5))
    (fun t _ => flushed_eq m c t) cover

end Cert.KernelIdeal.RegionValue

end
-- ==== Proof.KernelTailTerm.lean ====
/-
  The host operations after the kernel region, as one function of the target indices and of the packed array the
  region wrote: the packed columns are added into a zero accumulator [9, 100000] at their edge's target (a negative
  target first moved up by 100 000), rows 0–7 of the accumulator are the numerators, row 8 the denominators, and each
  numerator is divided by its target's denominator where that is positive and by one otherwise.
-/
import proofs.«431084_j53017076302315_2_alg».proof.KernelIdeal
import Idealize.ShloMosaic.PureOps.Ideal

noncomputable section

namespace Cert.KernelIdeal.Tail

open Cert.KernelIdeal Idealize.ShloMosaic
open Cert.KernelIdeal.Facts₀ Cert.KernelIdeal.Facts

variable [Cert.KernelIdeal.Facts]

/-- The accumulator after the scatter-add. -/
def accTerm (eo : IVec S6400000 32) (vw : FVec Ideal S9x6400000 .f32) : FVec Ideal S9x100000 .f32 :=
  Host.scatterAdd scatter_S9x100000_S6400000x1_S9x6400000_0_1_1_1
    (broadcastInDim S9x100000 ![] bcast_S_S9x100000 (constant (F := Ideal) S_ .f32 0x00000000#32))
    (broadcastInDim S6400000x1 ![0] bcast_S6400000_S6400000x1_0
      (select (cmpi .slt eo (broadcastInDim S6400000 ![] bcast_S_S6400000 (constantI S_ 32 0#32)))
        (addi eo (broadcastInDim S6400000 ![] bcast_S_S6400000 (constantI S_ 32 100000#32))) eo))
    vw

/-- The denominators: row 8 of the accumulator as a vector. -/
def demTerm (eo : IVec S6400000 32) (vw : FVec Ideal S9x6400000 .f32) : FVec Ideal S100000 .f32 :=
  shapeCast S100000 (extractStridedSlice S1x100000 ![8, 0] (accTerm eo vw) slices_S9x100000_S1x100000_8_0) shapeCasts_S1x100000_S100000

/-- The array the program returns. -/
def tailTerm (eo : IVec S6400000 32) (vw : FVec Ideal S9x6400000 .f32) : FVec Ideal S8x100000 .f32 :=
  Host.divf (extractStridedSlice S8x100000 ![0, 0] (accTerm eo vw) slices_S9x100000_S8x100000_0_0)
    (broadcastInDim S8x100000 ![0, 1] bcast_S1x100000_S8x100000_0_1
      (broadcastInDim S1x100000 ![1] bcast_S100000_S1x100000_1
        (select (cmpf .ogt (demTerm eo vw) (broadcastInDim S100000 ![] bcast_S_S100000 (constant (F := Ideal) S_ .f32 0x00000000#32)))
          (demTerm eo vw)
          (broadcastInDim S100000 ![] bcast_S_S100000 (id (constant (F := Ideal) S_ .f32 0x3F800000#32))))))

end Cert.KernelIdeal.Tail

end
-- ==== Proof.KernelTail.lean ====
/-
  The host operations after the kernel region, read at the extended reals.

  After the region has written its array `vw : [9, E]` (rows 0–7 the gathered features times the edge's weight, row 8 the
  weight), the program adds every column `e` of `vw` onto column `eo e` of a zero array `[9, 100000]`, takes rows 0–7 as
  numerators and row 8 as denominators, and divides each numerator by its denominator where that is positive and by one
  otherwise. Here the program's result array is shown to be that one function (`tailTerm`) of the target indices as
  launched and of the array the region wrote: the operations are composed in order from what the buffers hold when the
  region is left, where the region's output array holds what the region wrote and the target indices, which nothing
  before wrote, are as launched.
-/
import proofs.«431084_j53017076302315_2_alg».proof.Proof.Gen.KernelIdeal.Frame
import proofs.«431084_j53017076302315_2_alg».proof.Proof.Spec
import proofs.«431084_j53017076302315_2_alg».proof.Proof.KernelTailTerm
import Idealize.ShloMosaic.Lib.Pipeline.FrameSuffix

noncomputable section

namespace Cert.KernelIdeal.Tail

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-! ## The printed operations as the one term -/

section Bridge
variable (eo : IVec S6400000 32) (vw : FVec Ideal S9x6400000 .f32)

/-- The accumulator, as the operations spell it. -/
theorem acc_spelled :
    Host.scatterAdd (F := Ideal) scatter_S9x100000_S6400000x1_S9x6400000_0_1_1_1
      (broadcastInDim S9x100000 ![] bcast_S_S9x100000 (constant (F := Ideal) S_ .f32 0#32))
      (broadcastInDim S6400000x1 ![0] bcast_S6400000_S6400000x1_0
        (select (cmpi .slt eo (broadcastInDim S6400000 ![] bcast_S_S6400000 (constantI S_ 32 0#32)))
          (addi eo (broadcastInDim S6400000 ![] bcast_S_S6400000 (constantI S_ 32 100000#32))) eo)) vw = accTerm eo vw := rfl

/-- The denominators, as the reshape's result is spelled: index by index, at the result buffer's own shape. -/
theorem dem_spelled :
    (fun i => shapeCast main_v17.ty.shape
      (extractStridedSlice S1x100000 ![8, 0] (accTerm eo vw) slices_S9x100000_S1x100000_8_0) shapeCasts_S1x100000_S100000 i)
      = demTerm eo vw := rfl

/-! The called function's buffers hold values of the types it states: read through those types, a value is itself. -/
theorem toBuf_v20 (x : FVec Ideal S100000 .f32) :
    (StableHlo.TRef.of main_v20 : StableHlo.TRef sig ⟨S100000, .f32⟩).toBuf (Val := Elt Ideal) x = x := rfl
theorem ofBuf_v19 (x : IVec S100000 1) :
    (StableHlo.TRef.of main_v19 : StableHlo.TRef sig ⟨S100000, .i1⟩).ofBuf (Val := Elt Ideal) x = x := rfl
theorem ofBuf_v17 (x : FVec Ideal S100000 .f32) :
    (StableHlo.TRef.of main_v17 : StableHlo.TRef sig ⟨S100000, .f32⟩).ofBuf (Val := Elt Ideal) x = x := rfl
theorem ofBuf_call3_v1 (x : FVec Ideal S100000 .f32) :
    (StableHlo.TRef.of main_call3_v1 : StableHlo.TRef sig ⟨S100000, .f32⟩).ofBuf (Val := Elt Ideal) x = x := rfl
theorem toBuf_call3_v1 (x : FVec Ideal S100000 .f32) :
    (StableHlo.TRef.of main_call3_v1 : StableHlo.TRef sig ⟨S100000, .f32⟩).toBuf (Val := Elt Ideal) x = x := rfl
theorem ofBuf_call3_v0 (x : FVec Ideal S_ .f32) :
    (StableHlo.TRef.of main_call3_v0 : StableHlo.TRef sig ⟨S_, .f32⟩).ofBuf (Val := Elt Ideal) x = x := rfl
theorem toBuf_call3_v0 (x : FVec Ideal S_ .f32) :
    (StableHlo.TRef.of main_call3_v0 : StableHlo.TRef sig ⟨S_, .f32⟩).toBuf (Val := Elt Ideal) x = x := rfl
theorem ofBuf_cst_2 (x : FVec Ideal S_ .f32) :
    (StableHlo.TRef.of main_cst_2 : StableHlo.TRef sig ⟨S_, .f32⟩).ofBuf (Val := Elt Ideal) x = x := rfl

/-- The operations after the region, as the fold over them spells their result (the called function's buffers read
    through their own types), are the one term. -/
theorem spelled_eq :
    Host.divf
      (extractStridedSlice S8x100000 ![0, 0]
        (Host.scatterAdd (F := Ideal) scatter_S9x100000_S6400000x1_S9x6400000_0_1_1_1
          (broadcastInDim S9x100000 ![] bcast_S_S9x100000 (constant (F := Ideal) S_ .f32 0#32))
          (broadcastInDim S6400000x1 ![0] bcast_S6400000_S6400000x1_0
            (select (cmpi .slt eo (broadcastInDim S6400000 ![] bcast_S_S6400000 (constantI S_ 32 0#32)))
              (addi eo (broadcastInDim S6400000 ![] bcast_S_S6400000 (constantI S_ 32 100000#32))) eo)) vw)
        slices_S9x100000_S8x100000_0_0)
      (broadcastInDim S8x100000 ![0, 1] bcast_S1x100000_S8x100000_0_1
        (broadcastInDim S1x100000 ![1] bcast_S100000_S1x100000_1
          ((StableHlo.TRef.of main_v20 : StableHlo.TRef sig ⟨S100000, .f32⟩).toBuf (Val := Elt Ideal)
            (select
              ((StableHlo.TRef.of main_v19 : StableHlo.TRef sig ⟨S100000, .i1⟩).ofBuf (Val := Elt Ideal)
                (cmpf .ogt
                  (fun i => shapeCast main_v17.ty.shape
                    (extractStridedSlice S1x100000 ![8, 0]
                      (Host.scatterAdd (F := Ideal) scatter_S9x100000_S6400000x1_S9x6400000_0_1_1_1
                        (broadcastInDim S9x100000 ![] bcast_S_S9x100000 (constant (F := Ideal) S_ .f32 0#32))
                        (broadcastInDim S6400000x1 ![0] bcast_S6400000_S6400000x1_0
                          (select (cmpi .slt eo (broadcastInDim S6400000 ![] bcast_S_S6400000 (constantI S_ 32 0#32)))
                            (addi eo (broadcastInDim S6400000 ![] bcast_S_S6400000 (constantI S_ 32 100000#32))) eo)) vw)
                      slices_S9x100000_S1x100000_8_0)
                    shapeCasts_S1x100000_S100000 i)
                  (broadcastInDim S100000 ![] bcast_S_S100000 (constant (F := Ideal) S_ .f32 0#32))))
              ((StableHlo.TRef.of main_v17 : StableHlo.TRef sig ⟨S100000, .f32⟩).ofBuf (Val := Elt Ideal)
                fun i => shapeCast main_v17.ty.shape
                  (extractStridedSlice S1x100000 ![8, 0]
                    (Host.scatterAdd (F := Ideal) scatter_S9x100000_S6400000x1_S9x6400000_0_1_1_1
                      (broadcastInDim S9x100000 ![] bcast_S_S9x100000 (constant (F := Ideal) S_ .f32 0#32))
                      (broadcastInDim S6400000x1 ![0] bcast_S6400000_S6400000x1_0
                        (select (cmpi .slt eo (broadcastInDim S6400000 ![] bcast_S_S6400000 (constantI S_ 32 0#32)))
                          (addi eo (broadcastInDim S6400000 ![] bcast_S_S6400000 (constantI S_ 32 100000#32))) eo)) vw)
                    slices_S9x100000_S1x100000_8_0)
                  shapeCasts_S1x100000_S100000 i)
              ((StableHlo.TRef.of main_call3_v1 : StableHlo.TRef sig ⟨S100000, .f32⟩).ofBuf (Val := Elt Ideal)
                ((StableHlo.TRef.of main_call3_v1 : StableHlo.TRef sig ⟨S100000, .f32⟩).toBuf (Val := Elt Ideal)
                  (broadcastInDim S100000 ![] bcast_S_S100000
                    ((StableHlo.TRef.of main_call3_v0 : StableHlo.TRef sig ⟨S_, .f32⟩).ofBuf (Val := Elt Ideal)
                      ((StableHlo.TRef.of main_call3_v0 : StableHlo.TRef sig ⟨S_, .f32⟩).toBuf (Val := Elt Ideal)
                        (id ((StableHlo.TRef.of main_cst_2 : StableHlo.TRef sig ⟨S_, .f32⟩).ofBuf (Val := Elt Ideal)
                          (constant (F := Ideal) S_ .f32 1065353216#32))))))))))))
      = tailTerm eo vw := by
  rw [acc_spelled, dem_spelled, toBuf_v20, ofBuf_v19, ofBuf_v17, ofBuf_call3_v1, toBuf_call3_v1, ofBuf_call3_v0, toBuf_call3_v0, ofBuf_cst_2]
  unfold tailTerm
  rfl

end Bridge

/-- The host operations after the region, from any buffer contents `W`, leave in the result buffer the one term at
    what `W` holds in the target indices and in the region's array. -/
theorem after_tail (W : Valuation τ sig (Elt Ideal)) :
    (StableHlo.after (List.flatten [Gen.hostOps1 (F := Ideal), Gen.hostOps1_1, Gen.hostOps1_2]) W (Proc.devRef .tc main_v23) : S8x100000.Idx → EReal)
      = tailTerm (W (Proc.devRef .tc main_arg3)) (W (Proc.devRef .tc main_v6)) := by
  simp only [Gen.hostOps1, Gen.hostOps1_1, Gen.hostOps1_2, List.flatten_cons, List.flatten_nil, List.append_nil, List.cons_append, List.nil_append]
  after_results_simp
  exact spelled_eq (W (Proc.devRef .tc main_arg3)) (W (Proc.devRef .tc main_v6))

/-! ## From what the region leaves -/

/-- What core `c`'s buffers hold when the region is left: its arrays at what the region wrote, every other buffer as
    the region found it. -/
abbrev Wout (c : Dev nD) : Valuation τ sig (Elt Ideal) :=
  Pipeline.withArrays (cfgs 0).spec c (Gen.V0 (F := Ideal) m c) fun w => (Gen.dats (F := Ideal) m 0 c).arrAt w (cfgs 0).N

/-- The target indices are no array of the region and no host operation before it writes them: they are as launched. -/
theorem Wout_arg3 (c : Dev nD) : Wout m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans
    (Gen.V_main_arg3 m c)

/-- The region's output array holds what the region wrote. -/
theorem Wout_v6 (c : Dev nD) : Wout m c (Proc.devRef .tc main_v6) = (Gen.dats (F := Ideal) m 0 c).arrAt 2 cfg0.N :=
  Pipeline.withArrays_arr spec0 launch0.win.arr_inj c _ _ 2

/-- The program's result array is the one term at the launched target indices and the region's array. -/
theorem tail_term_eq (c : Dev nD) :
    (Pipeline.afterTail₀ cfgs (Gen.dats (F := Ideal) m) 0 (Gen.V0 (F := Ideal) m) [Gen.hostOps1, Gen.hostOps1_1, Gen.hostOps1_2] c main_v23 : S8x100000.Idx → EReal)
      = tailTerm (m ((c.tc : Thread nD τ).loc main_arg3)) ((Gen.dats (F := Ideal) m 0 c).arrAt 2 cfg0.N) := by
  unfold Pipeline.afterTail₀
  refine (after_tail (Wout m c)).trans ?_
  rw [Wout_arg3, Wout_v6]

end Cert.KernelIdeal.Tail

end
-- ==== Proof.KernelTailValue.lean ====
/-
  The host operations after the kernel region compute the specification's result from the packed array the region
  writes: the columns added at each target are the specification's numerators and denominators, and the guarded quotient
  is the specification's.
-/
import proofs.«431084_j53017076302315_2_alg».proof.Proof.KernelTailTerm
import proofs.«431084_j53017076302315_2_alg».proof.Proof.Gen.KernelIdeal
import proofs.«431084_j53017076302315_2_alg».proof.Proof.Spec
import proofs.«431084_j53017076302315_2_alg».proof.Proof.LibIndexed
import Idealize.ShloMosaic.Lib.Affine
import Idealize.ShloMosaic.Lib.Pipeline.Value
import Idealize.ShloMosaic.Lib.IdealHost

noncomputable section

namespace Cert.KernelIdeal.Tail

open Cert.KernelIdeal Idealize.ShloMosaic Idealize.ShloMosaic.ValueIdx
open Cert.KernelIdeal.Facts₀ Cert.KernelIdeal.Facts

/-- A nonnegative word does not test below zero, so the select that would add the table's length to a negative word
    keeps the word itself. -/
theorem select_of_nonneg (w a : BitVec 32) (h0 : 0 ≤ w.toInt) :
    Scalar.select (IntOp.cmpi .slt w 0#32) a w = w := by
  have hc : ¬ IntOp.cmpi .slt w 0#32 = 1#1 := by
    rw [IntOp.cmpi_slt, show (0#32 : BitVec 32).toInt = 0 from by decide]
    omega
  unfold Scalar.select
  exact if_neg hc

/-- The printed scatter record is the scatter of whole columns of the general lemma. -/
theorem scatter_bridge : scatter_S9x100000_S6400000x1_S9x6400000_0_1_1_1
    = Cert.LibIndexed.colsScatter 9 100000 6400000 scatter_S9x100000_S6400000x1_S9x6400000_0_1_1_1_wf := rfl

/-- The column edge `e`'s packed column is added at is its raw target word, when that is nonnegative. -/
theorem tgt_apply (eo : IVec S6400000 32) (e : Fin 6400000) (h0 : 0 ≤ (eo (ix1 e)).toInt) :
    broadcastInDim S6400000x1 ![0] bcast_S6400000_S6400000x1_0
      (select (cmpi .slt eo (broadcastInDim S6400000 ![] bcast_S_S6400000 (constantI S_ 32 0#32)))
        (addi eo (broadcastInDim S6400000 ![] bcast_S_S6400000 (constantI S_ 32 100000#32))) eo) (ix2 e (0 : Fin 1))
      = eo (ix1 e) := by
  refine (broadcastInDim_apply _ _ _ (ix2 e (0 : Fin 1)) (ix1 e) (fun a => ?_)).trans ?_
  · match a with
    | ⟨0, _⟩ => show e.val = if (6400000 : Nat) = 1 then 0 else e.val; rw [if_neg (by decide)]
  · exact select_of_nonneg _ _ h0

/-- The zero accumulator reads the zero word everywhere. -/
theorem zero_acc_apply (i : S9x100000.Idx) :
    broadcastInDim S9x100000 ![] bcast_S_S9x100000 (constant (F := Ideal) S_ .f32 0x00000000#32) i = Cert.Spec.zero :=
  (broadcastInDim_apply _ _ _ i (fun a => a.elim0) (fun a => a.elim0)).trans (constant_apply _ _)

/-- The accumulator at row `b'`, target `n`: zero plus row `b'` of the packed columns of the edges into `n`. -/
theorem acc_apply (eo : IVec S6400000 32) (vw : FVec Ideal S9x6400000 .f32) (h0 : ∀ e : Fin 6400000, 0 ≤ (eo (ix1 e)).toInt)
    (b' : Fin 9) (n : Fin 100000) :
    accTerm eo vw (ix2 b' n) = Cert.Spec.zero + ∑ e ∈ Cert.Spec.edges eo n, vw (ix2 b' e) := by
  rw [accTerm, Host.scatterAdd, Ideal.hostScatterAdd_def, scatter_bridge, Cert.LibIndexed.scatterAdd_cols, zero_acc_apply]
  unfold Cert.Spec.edges
  refine congrArg (Cert.Spec.zero + ·) (Finset.sum_congr (Finset.filter_congr fun e _ => ?_) fun _ _ => rfl)
  rw [tgt_apply eo e (h0 e)]

/-- Rows 0–7 of the accumulator, sliced out: row `b`, target `n` is the accumulator there. -/
theorem num_read (acc : FVec Ideal S9x100000 .f32) (b : Fin 8) (n : Fin 100000) :
    extractStridedSlice S8x100000 ![0, 0] acc slices_S9x100000_S8x100000_0_0 (ix2 b n)
      = acc (ix2 (⟨b.val, by omega⟩ : Fin 9) n) := by
  refine extractStridedSlice_apply _ acc _ (ix2 b n) (ix2 (⟨b.val, by omega⟩ : Fin 9) n) (fun a => ?_)
  match a with
  | ⟨0, _⟩ => show b.val = 0 + b.val; omega
  | ⟨1, _⟩ => show n.val = 0 + n.val; omega

/-- Row 8 of the accumulator, sliced out and flattened: position `n` is the accumulator at row 8, target `n`. -/
theorem dem_read (acc : FVec Ideal S9x100000 .f32) (n : Fin 100000) :
    shapeCast S100000 (extractStridedSlice S1x100000 ![8, 0] acc slices_S9x100000_S1x100000_8_0) shapeCasts_S1x100000_S100000 (ix1 n)
      = acc (ix2 (8 : Fin 9) n) := by
  refine (shapeCast_apply _ _ (ix1 n) (ix2 (0 : Fin 1) n) ?_).trans ?_
  · rw [Shape.rowMajor_val_two, Shape.rowMajor_val_one]
    show 0 * 100000 + n.val = n.val
    omega
  · refine extractStridedSlice_apply _ acc _ (ix2 (0 : Fin 1) n) (ix2 (8 : Fin 9) n) (fun a => ?_)
    match a with
    | ⟨0, _⟩ => show 8 = 8 + 0; rfl
    | ⟨1, _⟩ => show n.val = 0 + n.val; omega

/-- A vector of denominators stretched to a row and then over the eight fields reads, at `(b, n)`, its entry `n`. -/
theorem bcast_read (d : FVec Ideal S100000 .f32) (b : Fin 8) (n : Fin 100000) :
    broadcastInDim S8x100000 ![0, 1] bcast_S1x100000_S8x100000_0_1
      (broadcastInDim S1x100000 ![1] bcast_S100000_S1x100000_1 d) (ix2 b n) = d (ix1 n) := by
  refine (broadcastInDim_apply _ _ _ (ix2 b n) (ix2 (0 : Fin 1) n) (fun a => ?_)).trans ?_
  · match a with
    | ⟨0, _⟩ => show 0 = if (1 : Nat) = 1 then 0 else b.val; rw [if_pos rfl]
    | ⟨1, _⟩ => show n.val = if (100000 : Nat) = 1 then 0 else n.val; rw [if_neg (by decide)]
  · refine broadcastInDim_apply _ _ _ (ix2 (0 : Fin 1) n) (ix1 n) (fun a => ?_)
    match a with
    | ⟨0, _⟩ => show n.val = if (100000 : Nat) = 1 then 0 else n.val; rw [if_neg (by decide)]

/-- The zero the denominators are compared with reads the zero word everywhere. -/
theorem zero_vec_apply (i : S100000.Idx) :
    broadcastInDim S100000 ![] bcast_S_S100000 (constant (F := Ideal) S_ .f32 0x00000000#32) i = Cert.Spec.zero :=
  (broadcastInDim_apply _ _ _ i (fun a => a.elim0) (fun a => a.elim0)).trans (constant_apply _ _)

/-- The one that stands in for a denominator that is not positive reads the one word everywhere. -/
theorem one_vec_apply (i : S100000.Idx) :
    broadcastInDim S100000 ![] bcast_S_S100000 (id (constant (F := Ideal) S_ .f32 0x3F800000#32)) i = Cert.Spec.one :=
  (broadcastInDim_apply _ _ _ i (fun a => a.elim0) (fun a => a.elim0)).trans (constant_apply _ _)

/-- The returned array at `(b, n)`: the numerator over its target's denominator where that is positive, over one otherwise. -/
theorem tail_apply (eo : IVec S6400000 32) (vw : FVec Ideal S9x6400000 .f32) (b : Fin 8) (n : Fin 100000) :
    tailTerm eo vw (ix2 b n)
      = Cert.Spec.quot (accTerm eo vw (ix2 (⟨b.val, by omega⟩ : Fin 9) n)) (demTerm eo vw (ix1 n)) := by
  rw [tailTerm, hostDivf_apply, num_read, bcast_read, select_apply, cmpf_apply, zero_vec_apply, one_vec_apply, Cert.Spec.quot]

/-- Row `b` of the accumulator at target `n` is the specification's numerator. -/
theorem acc_num (x : Cert.Spec.SX.Idx → EReal) (pin pout : Cert.Spec.SP.Idx → EReal) (eo ei : Cert.Spec.SE.Idx → BitVec 32)
    (h0 : ∀ e : Fin 6400000, 0 ≤ (eo (ix1 e)).toInt) (b : Fin 8) (n : Fin 100000) :
    accTerm eo (Cert.Spec.vwOf (Cert.Spec.coords pin pout eo ei) (Cert.Spec.xg x ei)) (ix2 (⟨b.val, by omega⟩ : Fin 9) n)
      = Cert.Spec.num x pin pout eo ei b n := by
  rw [acc_apply eo _ h0, Cert.Spec.num]
  exact congrArg (Cert.Spec.zero + ·) (Finset.sum_congr rfl fun e _ => Cert.Spec.vwOf_row pin pout x eo ei b e)

/-- The denominators at target `n` are the specification's denominator. -/
theorem dem_dem (x : Cert.Spec.SX.Idx → EReal) (pin pout : Cert.Spec.SP.Idx → EReal) (eo ei : Cert.Spec.SE.Idx → BitVec 32)
    (h0 : ∀ e : Fin 6400000, 0 ≤ (eo (ix1 e)).toInt) (n : Fin 100000) :
    demTerm eo (Cert.Spec.vwOf (Cert.Spec.coords pin pout eo ei) (Cert.Spec.xg x ei)) (ix1 n) = Cert.Spec.dem pin pout eo ei n := by
  rw [demTerm, dem_read, acc_apply eo _ h0, Cert.Spec.dem]
  exact congrArg (Cert.Spec.zero + ·) (Finset.sum_congr rfl fun e _ => Cert.Spec.vwOf_last pin pout x eo ei e)

theorem tailTerm_result (x : Cert.Spec.SX.Idx → EReal) (pin pout : Cert.Spec.SP.Idx → EReal) (eo ei : Cert.Spec.SE.Idx → BitVec 32)
    (hR : Cert.Spec.InRange eo ei) :
    tailTerm eo (Cert.Spec.vwOf (Cert.Spec.coords pin pout eo ei) (Cert.Spec.xg x ei)) = Cert.Spec.result x pin pout eo ei := by
  have h0 : ∀ e : Fin 6400000, 0 ≤ (eo (ix1 e)).toInt := fun e => (hR e).1.1
  funext j
  obtain ⟨b, n, rfl⟩ : ∃ (b : Fin 8) (n : Fin 100000), j = ix2 b n := ⟨j 0, j 1, eq_ix2 j⟩
  rw [tail_apply, acc_num x pin pout eo ei h0 b n, dem_dem x pin pout eo ei h0 n]
  rfl

end Cert.KernelIdeal.Tail

end
-- ==== Proof.RefWeight.lean ====
/-
  The reference's weight of one edge: the reciprocal of the square root of the squared length of the edge's displacement,
  which for a nonnegative squared length is the reciprocal square root the specification names.
-/
import proofs.«431084_j53017076302315_2_alg».proof.Proof.Gen.ReferenceIdeal.Read
import proofs.«431084_j53017076302315_2_alg».proof.Proof.Spec
import proofs.«431084_j53017076302315_2_alg».proof.Proof.LibIndexed
import Idealize.ShloMosaic.Lib.Affine
import Idealize.ShloMosaic.Lib.IdealHost

noncomputable section

namespace Cert.RefWeight

open Cert.ReferenceIdeal Cert.ReferenceIdeal.Gen Cert.ReferenceIdeal.Read
open Idealize.ShloMosaic Idealize.ShloMosaic.ValueIdx

/-- A nonnegative word does not test below zero, so the select that would add the table's length to a negative word
    keeps the word itself. -/
theorem select_of_nonneg (w a : BitVec 32) (h0 : 0 ≤ w.toInt) :
    Scalar.select (IntOp.cmpi .slt w 0#32) a w = w := by
  have hc : ¬ IntOp.cmpi .slt w 0#32 = 1#1 := by
    rw [IntOp.cmpi_slt, show (0#32 : BitVec 32).toInt = 0 from by decide]
    omega
  unfold Scalar.select
  exact if_neg hc

/-- The printed gather record is the gather of whole rows of the general lemma. -/
theorem gather_bridge : gather_S100000x3_S6400000x1_S6400000x3_1_0_n_n_0_1_13
    = Cert.LibIndexed.rowsDims 100000 3 6400000 Facts₀.gather_S100000x3_S6400000x1_S6400000x3_1_0_n_n_0_1_13_wf := rfl

section
variable (x1 x2 : (⟨S100000x3, .f32⟩ : BufTy).Contents (Elt Ideal)) (x3 x4 : (⟨S6400000, .i32⟩ : BufTy).Contents (Elt Ideal))

/-- The source index of edge `e` as the gather takes it is the raw word, when that is nonnegative. -/
theorem v5_apply (e : Fin 6400000) (h0 : 0 ≤ (x4 (ix1 e)).toInt) :
    val_main_v5 (F := Ideal) x4 (ix2 e (0 : Fin 1)) = x4 (ix1 e) := by
  have hi : idx_main_v5 (ix2 e (0 : Fin 1)) = ix1 e := by
    funext a; match a with | ⟨0, _⟩ => rfl
  rw [val_main_v5_apply, hi, val_main_v4_apply, val_main_v1_apply, val_main_v0_apply, val_main_c_apply]
  exact select_of_nonneg _ _ h0

/-- The target index of edge `e` as the gather takes it is the raw word, when that is nonnegative. -/
theorem v14_apply (e : Fin 6400000) (h0 : 0 ≤ (x3 (ix1 e)).toInt) :
    val_main_v14 (F := Ideal) x3 (ix2 e (0 : Fin 1)) = x3 (ix1 e) := by
  have hi : idx_main_v14 (ix2 e (0 : Fin 1)) = ix1 e := by
    funext a; match a with | ⟨0, _⟩ => rfl
  rw [val_main_v14_apply, hi, val_main_v13_apply, val_main_v10_apply, val_main_v9_apply, val_main_c_1_apply]
  exact select_of_nonneg _ _ h0

/-- The gathered source coordinates: row `e`, column `k` is coordinate `k` of the point the source word names. -/
theorem v6_apply (e : Fin 6400000) (k : Fin 3) (h0 : 0 ≤ (x4 (ix1 e)).toInt) :
    val_main_v6 (F := Ideal) x1 x4 (ix2 e k) = x1 (ix2 (Cert.Spec.cl (x4 (ix1 e))) k) := by
  unfold val_main_v6
  rw [gather_bridge, Cert.LibIndexed.gather_rows_apply (by decide)]
  refine congrArg (fun r : Fin 100000 => x1 (ix2 r k)) (Fin.ext ?_)
  show min (val_main_v5 (F := Ideal) x4 (ix2 e (0 : Fin 1))).toInt.toNat (100000 - 1) = min (x4 (ix1 e)).toInt.toNat (100000 - 1)
  rw [v5_apply x4 e h0]

/-- The gathered target coordinates: row `e`, column `k` is coordinate `k` of the point the target word names. -/
theorem v15_apply (e : Fin 6400000) (k : Fin 3) (h0 : 0 ≤ (x3 (ix1 e)).toInt) :
    val_main_v15 (F := Ideal) x2 x3 (ix2 e k) = x2 (ix2 (Cert.Spec.cl (x3 (ix1 e))) k) := by
  unfold val_main_v15
  rw [gather_bridge, Cert.LibIndexed.gather_rows_apply (by decide)]
  refine congrArg (fun r : Fin 100000 => x2 (ix2 r k)) (Fin.ext ?_)
  show min (val_main_v14 (F := Ideal) x3 (ix2 e (0 : Fin 1))).toInt.toNat (100000 - 1) = min (x3 (ix1 e)).toInt.toNat (100000 - 1)
  rw [v14_apply x3 e h0]

/-- The displacement array at row `e`, column `k` is coordinate `k` of edge `e`'s displacement. -/
theorem v16_apply (hR : Cert.Spec.InRange x3 x4) (e : Fin 6400000) (k : Fin 3) :
    val_main_v16 (F := Ideal) x1 x2 x3 x4 (ix2 e k) = Cert.Spec.disp x1 x2 x3 x4 e k := by
  rw [val_main_v16_apply, val_main_v8_apply, val_main_v7_apply, val_main_cst_apply,
    v6_apply x1 x4 e k (hR e).2.1, v15_apply x2 x3 e k (hR e).1.1]
  rfl

/-- The squared displacement at the position the sum over coordinates reads for `k`. -/
theorem sq_apply (hR : Cert.Spec.InRange x3 x4) (e : Fin 6400000) (k : Fin 3) :
    val_main_call0_v0 (F := Ideal) x1 x2 x3 x4 (idx_main_call0_v1 (ix1 e) k)
      = Cert.Spec.disp x1 x2 x3 x4 e k * Cert.Spec.disp x1 x2 x3 x4 e k := by
  have hi : idx_main_call0_v1 (ix1 e) k = ix2 e k := by
    funext a; match a with | ⟨0, _⟩ => rfl | ⟨1, _⟩ => rfl
  rw [hi, val_main_call0_v0_apply, v16_apply x1 x2 x3 x4 hR e k]
  rfl

end

theorem weight_apply (x1 x2 : (⟨S100000x3, .f32⟩ : BufTy).Contents (Elt Ideal)) (x3 x4 : (⟨S6400000, .i32⟩ : BufTy).Contents (Elt Ideal))
    (hR : Cert.Spec.InRange x3 x4) (e : Fin 6400000) :
    Cert.ReferenceIdeal.Read.val_main_v19 (F := Ideal) x1 x2 x3 x4 (Idealize.ShloMosaic.ValueIdx.ix1 e) = Cert.Spec.wt x1 x2 x3 x4 e := by
  rw [val_main_v19_apply, val_main_v18_apply, val_main_cst_3_apply, val_main_v17_apply, val_main_call0_v1_apply,
    val_main_call0_cst_apply, Fin.sum_univ_three, sq_apply x1 x2 x3 x4 hR e 0, sq_apply x1 x2 x3 x4 hR e 1,
    sq_apply x1 x2 x3 x4 hR e 2]
  -- one over the square root of (zero plus the squared length), against the reciprocal square root of the squared length
  rw [Ideal.hostDivf_def, Ideal.hostUnary_sqrt_def, Ideal.ofBits_def, Ideal.ofBits_def, Ideal.ofBits_zero_f32, zero_add,
    Ideal.ofBits_one_f32]
  unfold Cert.Spec.wt Cert.Spec.wgt
  rw [Cert.LibIndexed.rsqrt_eq_one_div_sqrt (Cert.Spec.sq_len_nonneg _ _ _)]

end Cert.RefWeight

end
-- ==== Proof.RefValue.lean ====
/-
  The reference program's result, read at every index: it is the result array of the specification.

  Under the range hypothesis an index word is not negative, so the program's "add the table length to a negative
  index" select leaves it alone, and the gather's clamp is the specification's. The three coordinates of an edge's
  displacement are then the specification's, the norm's square is their squared length on the zero word, and one over
  its square root is the reciprocal square root. The two scatter-adds are the segment sums over the edges into a point,
  and the last select and divide are the specification's quotient.
-/
import proofs.«431084_j53017076302315_2_alg».proof.Proof.Gen.ReferenceIdeal.Read
import proofs.«431084_j53017076302315_2_alg».proof.Proof.Spec
import proofs.«431084_j53017076302315_2_alg».proof.Proof.LibSegment
import proofs.«431084_j53017076302315_2_alg».proof.Proof.LibIndexed
import Idealize.ShloMosaic.PureOps.Ideal
import Idealize.ShloMosaic.Lib.ValueIdx
import proofs.«431084_j53017076302315_2_alg».proof.Proof.RefWeight

noncomputable section

namespace Cert.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-! ## Index words -/

/-- A word that is not negative read signed is not below the zero word. -/
theorem slt_zero_of_nonneg {w : BitVec 32} (h : 0 ≤ w.toInt) : IntOp.cmpi .slt w 0#32 = 0#1 := by
  have h0 : (0#32 : BitVec 32).toInt = 0 := by decide
  have hs : w.slt 0#32 = false := by
    simp only [BitVec.slt, h0, decide_eq_false_iff_not, not_lt]
    exact h
  show BitVec.ofBool (w.slt 0#32) = 0#1
  rw [hs]
  rfl

/-! ## The composed index maps at coordinates -/

theorem idx_v25 (e : Fin 6400000) : idx_main_v25 (ix2 e (0 : Fin 1)) = ix1 e :=
  funext fun a => Fin.ext (by match a with | ⟨0, _⟩ => rfl)

theorem idx_v27 (e : Fin 6400000) (b : Fin 8) : idx_main_v27 (ix2 e b) = ix2 b e :=
  funext fun a => Fin.ext (by match a with | ⟨0, _⟩ => rfl | ⟨1, _⟩ => rfl)

theorem idx_v28 (e : Fin 6400000) : idx_main_v28 (ix2 e (0 : Fin 1)) = ix1 e :=
  funext fun a => Fin.ext (by match a with | ⟨0, _⟩ => rfl)

theorem idx_v29 (e : Fin 6400000) (b : Fin 8) : idx_main_v29 (ix2 e b) = ix2 e (0 : Fin 1) :=
  funext fun a => Fin.ext (by match a with | ⟨0, _⟩ => rfl | ⟨1, _⟩ => rfl)

theorem idx_v32 (e : Fin 6400000) : idx_main_v32 (ix2 e (0 : Fin 1)) = ix1 e :=
  funext fun a => Fin.ext (by match a with | ⟨0, _⟩ => rfl)

theorem idx_v34 (b : Fin 8) (n : Fin 100000) : idx_main_v34 (ix2 b n) = ix2 n b :=
  funext fun a => Fin.ext (by match a with | ⟨0, _⟩ => rfl | ⟨1, _⟩ => rfl)

theorem idx_v36 (e : Fin 6400000) : idx_main_v36 (ix2 e (0 : Fin 1)) = ix1 e :=
  funext fun a => Fin.ext (by match a with | ⟨0, _⟩ => rfl)

theorem idx_v41 (b : Fin 8) (n : Fin 100000) : idx_main_v41 (idx_main_v42 (ix2 b n)) = ix1 n :=
  funext fun a => Fin.ext (by match a with | ⟨0, _⟩ => rfl)

/-! ## Segment sums with their parts named (at any sizes) -/

section General
variable {N C B w : Nat}

/-- At the extended reals the host's scatter-add is the exact scatter-add. -/
theorem scatterAdd_ideal {s si u : Shape} {φ : FTy} (d : ScatterDims s si u) (a : FVec Ideal s φ) (i : IVec si w)
    (up : FVec Ideal u φ) : Host.scatterAdd (F := Ideal) d a i up = Ideal.hostScatterAdd d a i up := rfl

/-- A segment sum of a vector whose operand is `z` at the segment, whose ids are the words `ids` and whose updates are `g`. -/
theorem seg1_named (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (z : EReal) (ids : (⟨1, ![N]⟩ : Shape).Idx → BitVec w) (g : Fin N → EReal) (c : Fin C)
    (hx : x (ix1 c) = z) (hid : ∀ e : Fin N, idx (ix2 e (0 : Fin 1)) = ids (ix1 e)) (hu : ∀ e : Fin N, upd (ix1 e) = g e) :
    Ideal.hostScatterAdd (Cert.LibSegment.segDims1 N C wf) x idx upd (ix1 c)
      = z + ∑ e ∈ Finset.univ.filter (fun e : Fin N => (ids (ix1 e)).toInt = (c.val : ℤ)), g e := by
  rw [Cert.LibSegment.scatterAdd_seg1, hx]
  refine congrArg (z + ·) ?_
  refine Finset.sum_congr (Finset.filter_congr fun e _ => ?_) (fun e _ => hu e)
  rw [hid]

/-- A segment sum of a matrix by rows whose operand is `z` at the element, whose ids are the words `ids` and whose
    update column is `g`. -/
theorem seg2_named (wf : ScatterDims.WF ⟨2, ![C, B]⟩ ⟨2, ![N, 1]⟩ ⟨2, ![N, B]⟩ [1] [0] [0] 1)
    (x : (⟨2, ![C, B]⟩ : Shape).Idx → EReal) (idx : IVec ⟨2, ![N, 1]⟩ w) (upd : (⟨2, ![N, B]⟩ : Shape).Idx → EReal)
    (z : EReal) (ids : (⟨1, ![N]⟩ : Shape).Idx → BitVec w) (g : Fin N → EReal) (c : Fin C) (b : Fin B)
    (hx : x (ix2 c b) = z) (hid : ∀ e : Fin N, idx (ix2 e (0 : Fin 1)) = ids (ix1 e)) (hu : ∀ e : Fin N, upd (ix2 e b) = g e) :
    Ideal.hostScatterAdd (Cert.LibSegment.segDims2 N C B wf) x idx upd (ix2 c b)
      = z + ∑ e ∈ Finset.univ.filter (fun e : Fin N => (ids (ix1 e)).toInt = (c.val : ℤ)), g e := by
  rw [Cert.LibSegment.scatterAdd_seg2, hx]
  refine congrArg (z + ·) ?_
  refine Finset.sum_congr (Finset.filter_congr fun e _ => ?_) (fun e _ => hu e)
  rw [hid]

end General

section
variable (x0 : (⟨S8x100000, .f32⟩ : BufTy).Contents (Elt Ideal)) (x1 x2 : (⟨S100000x3, .f32⟩ : BufTy).Contents (Elt Ideal))
  (x3 x4 : (⟨S6400000, .i32⟩ : BufTy).Contents (Elt Ideal))

/-! ## The gathered features and the weighted values -/

/-- On a source word that is not negative the wrap-around select before the feature gather is the word. -/
theorem src_word (e : Fin 6400000) (h : 0 ≤ (x4 (ix1 e)).toInt) : val_main_v24 (F := Ideal) x4 (ix1 e) = x4 (ix1 e) := by
  rw [val_main_v24_apply, val_main_v21_apply, val_main_v20_apply, val_main_c_4_apply, slt_zero_of_nonneg h, select_zero]

/-- The printed feature gather takes whole columns. -/
theorem xgather_dims : gather_S8x100000_S6400000x1_S8x6400000_0_1_n_n_1_1_81
    = Cert.LibIndexed.colsDims 8 100000 6400000 gather_S8x100000_S6400000x1_S8x6400000_0_1_n_n_1_1_81_wf := rfl

/-- Field `b` gathered for edge `e` is the field at the edge's source point. -/
theorem xgather_apply (hR : Cert.Spec.InRange x3 x4) (b : Fin 8) (e : Fin 6400000) :
    val_main_v26 (F := Ideal) x0 x4 (ix2 b e) = x0 (ix2 b (Cert.Spec.cl (x4 (ix1 e)))) := by
  unfold val_main_v26
  rw [xgather_dims, Cert.LibIndexed.gather_cols_apply (by decide)]
  refine congrArg (fun r : Fin 100000 => x0 (ix2 b r)) (Fin.ext ?_)
  show min (val_main_v25 (F := Ideal) x4 (ix2 e (0 : Fin 1))).toInt.toNat (100000 - 1) = min (x4 (ix1 e)).toInt.toNat (100000 - 1)
  rw [val_main_v25_apply, idx_v25, src_word x4 e (hR e).2.1]

/-- Row `e`, column `b` of the values to be summed: the field at the edge's source point times the edge's weight. -/
theorem vals_apply (hR : Cert.Spec.InRange x3 x4) (e : Fin 6400000) (b : Fin 8) :
    val_main_v30 (F := Ideal) x0 x1 x2 x3 x4 (ix2 e b)
      = x0 (ix2 b (Cert.Spec.cl (x4 (ix1 e)))) * Cert.Spec.wt x1 x2 x3 x4 e := by
  rw [val_main_v30_apply, val_main_v27_apply, idx_v27, xgather_apply x0 x3 x4 hR, val_main_v29_apply, idx_v29,
    val_main_v28_apply, idx_v28, Cert.RefWeight.weight_apply x1 x2 x3 x4 hR, Ideal.mulf_def]

end

section
variable (x0 : (⟨S8x100000, .f32⟩ : BufTy).Contents (Elt Ideal)) (x1 x2 : (⟨S100000x3, .f32⟩ : BufTy).Contents (Elt Ideal))
  (x3 x4 : (⟨S6400000, .i32⟩ : BufTy).Contents (Elt Ideal))

/-! ## The two segment sums -/

/-- The ids of the numerators' segment sum are the target words. -/
theorem ids_num (e : Fin 6400000) : val_main_v32 (F := Ideal) x3 (ix2 e (0 : Fin 1)) = x3 (ix1 e) := by
  rw [val_main_v32_apply, idx_v32]

/-- The ids of the denominators' segment sum are the target words. -/
theorem ids_dem (e : Fin 6400000) : val_main_v36 (F := Ideal) x3 (ix2 e (0 : Fin 1)) = x3 (ix1 e) := by
  rw [val_main_v36_apply, idx_v36]

/-- The numerators' accumulator starts from the zero word. -/
theorem num_init (n : Fin 100000) (b : Fin 8) : val_main_v31 (F := Ideal) (ix2 n b) = Cert.Spec.zero := by
  rw [val_main_v31_apply, val_main_cst_6_apply, Ideal.ofBits_def]

/-- The denominators' accumulator starts from the zero word. -/
theorem dem_init (n : Fin 100000) : val_main_v35 (F := Ideal) (ix1 n) = Cert.Spec.zero := by
  rw [val_main_v35_apply, val_main_cst_7_apply, Ideal.ofBits_def]

/-- The printed numerators' scatter is a segment sum of a matrix by rows. -/
theorem num_dims : scatter_S100000x8_S6400000x1_S6400000x8_1_0_0_1
    = Cert.LibSegment.segDims2 6400000 100000 8 scatter_S100000x8_S6400000x1_S6400000x8_1_0_0_1_wf := rfl

/-- The printed denominators' scatter is a segment sum of a vector. -/
theorem dem_dims : scatter_S100000_S6400000x1_S6400000_n_0_0_1
    = Cert.LibSegment.segDims1 6400000 100000 scatter_S100000_S6400000x1_S6400000_n_0_0_1_wf := rfl

/-- The numerators' array is the exact segment sum of the weighted values. -/
theorem num_array (n : Fin 100000) (b : Fin 8) : val_main_v33 (F := Ideal) x0 x1 x2 x3 x4 (ix2 n b)
    = Ideal.hostScatterAdd (Cert.LibSegment.segDims2 6400000 100000 8 scatter_S100000x8_S6400000x1_S6400000x8_1_0_0_1_wf)
        (val_main_v31 (F := Ideal)) (val_main_v32 (F := Ideal) x3) (val_main_v30 (F := Ideal) x0 x1 x2 x3 x4) (ix2 n b) := by
  unfold val_main_v33
  rw [scatterAdd_ideal, num_dims]

/-- The denominators' array is the exact segment sum of the weights. -/
theorem dem_array (n : Fin 100000) : val_main_v37 (F := Ideal) x1 x2 x3 x4 (ix1 n)
    = Ideal.hostScatterAdd (Cert.LibSegment.segDims1 6400000 100000 scatter_S100000_S6400000x1_S6400000_n_0_0_1_wf)
        (val_main_v35 (F := Ideal)) (val_main_v36 (F := Ideal) x3) (val_main_v19 (F := Ideal) x1 x2 x3 x4) (ix1 n) := by
  unfold val_main_v37
  rw [scatterAdd_ideal, dem_dims]

/-- The specification's numerator, written out. -/
theorem num_spec (b : Fin 8) (n : Fin 100000) : Cert.Spec.num x0 x1 x2 x3 x4 b n
    = Cert.Spec.zero + ∑ e ∈ Finset.univ.filter (fun e : Fin 6400000 => (x3 (ix1 e)).toInt = (n.val : ℤ)),
        x0 (ix2 b (Cert.Spec.cl (x4 (ix1 e)))) * Cert.Spec.wt x1 x2 x3 x4 e := by
  unfold Cert.Spec.num Cert.Spec.edges
  with_reducible rfl

/-- The specification's denominator, written out. -/
theorem dem_spec (n : Fin 100000) : Cert.Spec.dem x1 x2 x3 x4 n
    = Cert.Spec.zero + ∑ e ∈ Finset.univ.filter (fun e : Fin 6400000 => (x3 (ix1 e)).toInt = (n.val : ℤ)),
        Cert.Spec.wt x1 x2 x3 x4 e := by
  unfold Cert.Spec.dem Cert.Spec.edges
  with_reducible rfl

/-- The numerators' segment sum at point `n`, field `b`. -/
theorem num_apply (hR : Cert.Spec.InRange x3 x4) (b : Fin 8) (n : Fin 100000) :
    val_main_v33 (F := Ideal) x0 x1 x2 x3 x4 (ix2 n b) = Cert.Spec.num x0 x1 x2 x3 x4 b n := by
  rw [num_array, num_spec]
  exact seg2_named _ _ _ _ Cert.Spec.zero x3 (fun e => x0 (ix2 b (Cert.Spec.cl (x4 (ix1 e)))) * Cert.Spec.wt x1 x2 x3 x4 e) n b
    (num_init n b) (ids_num x3) (fun e => vals_apply x0 x1 x2 x3 x4 hR e b)

/-- The denominators' segment sum at point `n`. -/
theorem dem_apply (hR : Cert.Spec.InRange x3 x4) (n : Fin 100000) :
    val_main_v37 (F := Ideal) x1 x2 x3 x4 (ix1 n) = Cert.Spec.dem x1 x2 x3 x4 n := by
  rw [dem_array, dem_spec]
  exact seg1_named _ _ _ _ Cert.Spec.zero x3 (Cert.Spec.wt x1 x2 x3 x4) n
    (dem_init n) (ids_dem x3) (fun e => Cert.RefWeight.weight_apply x1 x2 x3 x4 hR e)

end

section
variable (x0 : (⟨S8x100000, .f32⟩ : BufTy).Contents (Elt Ideal)) (x1 x2 : (⟨S100000x3, .f32⟩ : BufTy).Contents (Elt Ideal))
  (x3 x4 : (⟨S6400000, .i32⟩ : BufTy).Contents (Elt Ideal))

/-! ## The quotient -/

/-- The specification's result at field `b`, point `n`. -/
theorem result_spec (b : Fin 8) (n : Fin 100000) : Cert.Spec.result x0 x1 x2 x3 x4 (ix2 b n)
    = Cert.Spec.quot (Cert.Spec.num x0 x1 x2 x3 x4 b n) (Cert.Spec.dem x1 x2 x3 x4 n) := rfl

/-- The program's last array at field `b`, point `n`: the numerator over the guarded denominator. -/
theorem result_apply (hR : Cert.Spec.InRange x3 x4) (b : Fin 8) (n : Fin 100000) :
    val_main_v43 (F := Ideal) x0 x1 x2 x3 x4 (ix2 b n) = Cert.Spec.result x0 x1 x2 x3 x4 (ix2 b n) := by
  rw [result_spec, val_main_v43_apply, val_main_v34_apply, idx_v34, num_apply x0 x1 x2 x3 x4 hR, val_main_v42_apply,
    val_main_v41_apply, idx_v41, val_main_v40_apply, val_main_v39_apply, dem_apply x1 x2 x3 x4 hR, val_main_v38_apply,
    val_main_cst_8_apply, val_main_call1_v1_apply, val_main_call1_v0_apply, val_main_cst_9_apply, Ideal.hostDivf_def,
    Ideal.ofBits_def, Ideal.ofBits_def]
  unfold Cert.Spec.quot
  with_reducible rfl

end

/-- The reference's result array is the specification's. -/
theorem result_eq (m : (ℓ : Loc nD τ sig) → Buf (Elt Ideal) ℓ) (c : Dev nD)
    (hR : Cert.Spec.InRange (m ((c.tc : Thread nD τ).loc main_arg3)) (m ((c.tc : Thread nD τ).loc main_arg4))) :
    (Cert.ReferenceIdeal.Value.res_out0 (F := Ideal) m c : S8x100000.Idx → EReal)
      = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (val_main_v43_eq (F := Ideal) m c).trans ?_
  funext j
  obtain ⟨b, n, rfl⟩ : ∃ (b : Fin 8) (n : Fin 100000), j = ix2 b n := ⟨j 0, j 1, eq_ix2 j⟩
  exact result_apply _ _ _ _ _ hR b n

end Cert.RefValue

end
-- ==== Proof.lean ====
/-
  The proof of `Cert.Claim`: a graph interpolation kernel against its reference, equal over the extended reals.

  There are 6 400 000 edges between 100 000 source and 100 000 target points. Edge `e` has the displacement
  `1 + pin[ei e] − pout[eo e]`, the weight `w e` = the reciprocal of the displacement's length, and the result at field
  `b` and target `n` is `∑ x[b, ei e] · w e` over the edges into `n`, divided by `∑ w e` over the same edges where that is
  positive and by one otherwise (`Cert.Spec.result`).
  The kernel gathers the positions and the features with `take`, computes the packed array (eight rows of products, one
  row of weights) in a pipelined region of 80 blocks of 80 000 edges, scatter-adds whole columns of it and divides; the
  reference gathers by indexing, takes `1 / norm`, and forms the two sums as segment sums. The two treat an index
  outside `[0, 100000)` differently (a fill against a clamp in the gathers; a wrapped negative target against a dropped
  one in the sums), so the statement's precondition keeps both index arrays in range, where these all agree; on a
  squared length the reciprocal square root is one over the square root, corners included, and a sum over the edges
  into a target does not depend on how the updates are laid out.
  The modules: `Spec` (the function), `LibSegment` and `LibIndexed` (gathers and scatter-adds read at one element),
  `PreRange` (the index ranges out of the precondition), `KernelPrefixTerm` / `KernelPrefixCoords` / `KernelPrefixXg` / `KernelPrefixValue`, `KernelRegion`, `KernelTailTerm` / `KernelTail` / `KernelTailValue` (the kernel's
  host operations before the region, the region's output array, the host operations after it), `RefWeight` and
  `RefValue` (the reference's weight and result); the three frames are the generated ones.
-/
import proofs.«431084_j53017076302315_2_alg».proof.Defs
import proofs.«431084_j53017076302315_2_alg».proof.Proof.Gen.Kernel
import proofs.«431084_j53017076302315_2_alg».proof.Proof.Gen.Kernel.Skeleton
import proofs.«431084_j53017076302315_2_alg».proof.Proof.Gen.Kernel.Launch
import proofs.«431084_j53017076302315_2_alg».proof.Proof.Gen.Kernel.Points
import proofs.«431084_j53017076302315_2_alg».proof.Proof.Gen.Kernel.Frame
import proofs.«431084_j53017076302315_2_alg».proof.Proof.Gen.KernelIdeal
import proofs.«431084_j53017076302315_2_alg».proof.Proof.Gen.KernelIdeal.Skeleton
import proofs.«431084_j53017076302315_2_alg».proof.Proof.Gen.KernelIdeal.Launch
import proofs.«431084_j53017076302315_2_alg».proof.Proof.Gen.KernelIdeal.Points
import proofs.«431084_j53017076302315_2_alg».proof.Proof.Gen.KernelIdeal.Frame
import proofs.«431084_j53017076302315_2_alg».proof.Proof.Gen.ReferenceIdeal
import proofs.«431084_j53017076302315_2_alg».proof.Proof.Gen.Pre_finite_inputs
import proofs.«431084_j53017076302315_2_alg».proof.Proof.Gen.ReferenceIdeal.Run
import proofs.«431084_j53017076302315_2_alg».proof.Proof.Gen.ReferenceIdeal.Read
import proofs.«431084_j53017076302315_2_alg».proof.Proof.Spec
import proofs.«431084_j53017076302315_2_alg».proof.Proof.PreRange
import proofs.«431084_j53017076302315_2_alg».proof.Proof.KernelPrefixXg
import proofs.«431084_j53017076302315_2_alg».proof.Proof.KernelPrefixCoords
import proofs.«431084_j53017076302315_2_alg».proof.Proof.KernelPrefixValue
import proofs.«431084_j53017076302315_2_alg».proof.Proof.KernelRegion
import proofs.«431084_j53017076302315_2_alg».proof.Proof.KernelTail
import proofs.«431084_j53017076302315_2_alg».proof.Proof.KernelTailValue
import proofs.«431084_j53017076302315_2_alg».proof.Proof.RefValue
import Idealize.ShloMosaic.Adequacy
import Idealize.ShloMosaic.Init

noncomputable section

/-! ## The claims -/

namespace Cert.Proof.Claims

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

section
open Cert.KernelIdeal Cert.KernelIdeal.Gen

/-- The idealized kernel's run with its result named: where both index arrays name points, the array it returns is the
    weighted mean of the specification — the region writes the packed products and weights of the gathered rows, and
    the scatter-add after it sums them per target. -/
theorem kernel_run (m : (ℓ : Loc nD τ sig) → Buf (Elt Ideal) ℓ) (ρ : Dev nD → PrngReg)
    (hR : ∀ c : Dev nD, Cert.Spec.InRange (m ((c.tc : Thread nD τ).loc main_arg3)) (m ((c.tc : Thread nD τ).loc main_arg4))) :
    θ_run (Cert.KernelIdeal.defs (F := Ideal)) (onTc (τ := τ) (main (F := Ideal))) ⟨m, fun _ => 0, ρ⟩ (fun r => ∀ c : Dev nD,
      r.2.mem ((c.tc : Thread nD τ).loc main_v23) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, ?_, ?_, ?_, ?_, ?_⟩) (run_main (F := Ideal) m ρ)
  · refine ((h c).2 main_v23 (Pipeline.mem_restRefs_of main_v23 (by decide) (by decide))).trans ?_
    refine (Cert.KernelIdeal.Tail.tail_term_eq m c).trans ?_
    rw [Cert.KernelIdeal.RegionValue.region_out m c, Cert.KernelIdeal.Prefix.V_coords_term m c,
      Cert.KernelIdeal.Prefix.V_xg_term' m c, Cert.KernelIdeal.Prefix.coordsTerm_eq _ _ _ _ (hR c),
      Cert.KernelIdeal.Prefix.xgTerm_eq _ _ _ (hR c)]
    exact Cert.KernelIdeal.Tail.tailTerm_result _ _ _ _ _ (hR c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)
  · exact ((h c).2 main_arg4 (Pipeline.mem_restRefs_of main_arg4 (by decide) (by decide))).trans (W_main_arg4 m (dats m) c)

end

/-- From memories that agree on the arguments, both idealized programs end at the specification's array: the
    precondition puts both index arrays in range, where the kernel's and the reference's different treatments of an
    index outside the table never apply. -/
theorem algebraic : Cert.algebraic_KernelIdeal_ReferenceIdeal := by
  intro m ρ m' ρ' hpre hagree
  have hR : ∀ c : Dev Cert.KernelIdeal.nD, Cert.Spec.InRange (m ((c.tc : Thread Cert.KernelIdeal.nD Cert.KernelIdeal.τ).loc Cert.KernelIdeal.main_arg3)) (m ((c.tc : Thread Cert.KernelIdeal.nD Cert.KernelIdeal.τ).loc Cert.KernelIdeal.main_arg4)) :=
    fun c => Cert.PreRange.inRange_of_pre _ _ _ _ _ (hpre c)
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), kernel_run m ρ hR, ?_⟩
  refine (θ_run Cert.ReferenceIdeal.defs _ _).mono (fun _ h c => ⟨(h c).1.trans ?_, (h c).2⟩)
    (Cert.ReferenceIdeal.Value.run (F := Ideal) m' ρ')
  have hR' : Cert.Spec.InRange (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) := by
    rw [(hagree c).2.2.2.1, (hagree c).2.2.2.2]; exact hR c
  refine (Cert.RefValue.result_eq m' c hR').trans ?_
  rw [(hagree c).1, (hagree c).2.1, (hagree c).2.2.1, (hagree c).2.2.2.1, (hagree c).2.2.2.2]

end Cert.Proof.Claims

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
